-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144x32 : Shape := ⟨2, ![262144, 32]⟩
abbrev S32x32 : Shape := ⟨2, ![32, 32]⟩
abbrev S1x64 : Shape := ⟨2, ![1, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S262144x32 : S_.BroadcastsInDim S262144x32 (![] : Fin 0 → Fin S262144x32.rank)
  reducesTo_S262144x32_S_d0_1 : S262144x32.ReducesTo [0, 1] S_
  bcast_S_S32x32 : S_.BroadcastsInDim S32x32 (![] : Fin 0 → Fin S32x32.rank)
  reducesTo_S32x32_S_d0_1 : S32x32.ReducesTo [0, 1] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_arg11 : FVec F S1x64 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  main_v58

def fn_part2 {F : FTy → Type} [FloatOps F] (main_arg7 : FVec F S32x32 .f32) (main_arg8 : FVec F S32x32 .f32) (main_arg9 : FVec F S32x32 .f32) (main_arg10 : FVec F S1x64 .f32) (main_arg11 : FVec F S1x64 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_v48 main_v49 main_v50

def fn_part1 {F : FTy → Type} [FloatOps F] (main_arg4 : FVec F S262144x64 .f32) (main_arg5 : FVec F S262144x64 .f32) (main_arg6 : FVec F S32x32 .f32) (main_arg7 : FVec F S32x32 .f32) (main_arg8 : FVec F S32x32 .f32) (main_arg9 : FVec F S32x32 .f32) (main_arg10 : FVec F S1x64 .f32) (main_arg11 : FVec F S1x64 .f32) (main_v13 : IVec S_ 1) (main_v16 : IVec S262144x32 1) : IVec S_ 1 :=
  let main_c_5 : IVec S_ 1 := constantI S_ 1 1#1
  let main_v17 : IVec S_ 1 := (fun x v => Host.reduce IntOp.andi x v reducesTo_S262144x32_S_d0_1 h_S_) main_v16 main_c_5
  let main_v18 : IVec S_ 1 := andi main_v13 main_v17
  let main_v19 : FVec F S262144x64 .f32 := Host.absf main_arg4
  let main_cst_6 : FVec F S_ .f32 := constant S_ .f32 0x7F800000#32
  let main_v20 : FVec F S262144x64 .f32 := broadcastInDim S262144x64 ![] bcast_S_S262144x64 main_cst_6
  let main_v21 : IVec S262144x64 1 := cmpf .olt main_v19 main_v20
  let main_c_7 : IVec S_ 1 := constantI S_ 1 1#1
  let main_v22 : IVec S_ 1 := (fun x v => Host.reduce IntOp.andi x v reducesTo_S262144x64_S_d0_1 h_S_) main_v21 main_c_7
  let main_v23 : IVec S_ 1 := andi main_v18 main_v22
  let main_v24 : FVec F S262144x64 .f32 := Host.absf main_arg5
  let main_cst_8 : FVec F S_ .f32 := constant S_ .f32 0x7F800000#32
  let main_v25 : FVec F S262144x64 .f32 := broadcastInDim S262144x64 ![] bcast_S_S262144x64 main_cst_8
  let main_v26 : IVec S262144x64 1 := cmpf .olt main_v24 main_v25
  let main_c_9 : IVec S_ 1 := constantI S_ 1 1#1
  let main_v27 : IVec S_ 1 := (fun x v => Host.reduce IntOp.andi x v reducesTo_S262144x64_S_d0_1 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S262144x64 .f32) (main_arg1 : FVec F S262144x32 .f32) (main_arg2 : FVec F S262144x32 .f32) (main_arg3 : FVec F S262144x32 .f32) (main_arg4 : FVec F S262144x64 .f32) (main_arg5 : FVec F S262144x64 .f32) (main_arg6 : FVec F S32x32 .f32) (main_arg7 : FVec F S32x32 .f32) (main_arg8 : FVec F S32x32 .f32) (main_arg9 : FVec F S32x32 .f32) (main_arg10 : FVec F S1x64 .f32) (main_arg11 : FVec F S1x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x32 .f32 := Host.absf main_arg1
  let main_cst_0 : FVec F S_ .f32 := constant S_ .f32 0x7F800000#32
  let main_v5 : FVec F S262144x32 .f32 := broadcastInDim S262144x32 ![] bcast_S_S262144x32 main_cst_0
  let main_v6 : IVec S262144x32 1 := cmpf .olt main_v4 main_v5
  let main_c_1 : IVec S_ 1 := constantI S_ 1 1#1
  let main_v7 : IVec S_ 1 := (fun x v => Host.reduce IntOp.andi x v reducesTo_S262144x32_S_d0_1 h_S_) main_v6 main_c_1
  let main_v8 : IVec S_ 1 := andi main_v3 main_v7
  let main_v9 : FVec F S262144x32 .f32 := Host.absf main_arg2
  let main_cst_2 : FVec F S_ .f32 := constant S_ .f32 0x7F800000#32
  let main_v10 : FVec F S262144x32 .f32 := broadcastInDim S262144x32 ![] bcast_S_S262144x32 main_cst_2
  let main_v11 : IVec S262144x32 1 := cmpf .olt main_v9 main_v10
  let main_c_3 : IVec S_ 1 := constantI S_ 1 1#1
  let main_v12 : IVec S_ 1 := (fun x v => Host.reduce IntOp.andi x v reducesTo_S262144x32_S_d0_1 h_S_) main_v11 main_c_3
  let main_v13 : IVec S_ 1 := andi main_v8 main_v12
  let main_v14 : FVec F S262144x32 .f32 := Host.absf main_arg3
  let main_cst_4 : FVec F S_ .f32 := constant S_ .f32 0x7F800000#32
  let main_v15 : FVec F S262144x32 .f32 := broadcastInDim S262144x32 ![] bcast_S_S262144x32 main_cst_4
  let main_v16 : IVec S262144x32 1 := cmpf .olt main_v14 main_v15
  fn_part1 (F := F) main_arg4 main_arg5 main_arg6 main_arg7 main_arg8 main_arg9 main_arg10 main_arg11 main_v13 main_v16
-- ==== Kernel.lean ====
abbrev S262144x64 : Shape := ⟨2, ![262144, 64]⟩
abbrev S262144x32 : Shape := ⟨2, ![262144, 32]⟩
abbrev S32x32 : Shape := ⟨2, ![32, 32]⟩
abbrev S1x64 : Shape := ⟨2, ![1, 64]⟩
abbrev S128x32 : Shape := ⟨2, ![128, 32]⟩
abbrev S288x32 : Shape := ⟨2, ![288, 32]⟩
abbrev S262144x160 : Shape := ⟨2, ![262144, 160]⟩
abbrev S4096x64 : Shape := ⟨2, ![4096, 64]⟩
abbrev S4096x32 : Shape := ⟨2, ![4096, 32]⟩
abbrev S4096x160 : Shape := ⟨2, ![4096, 160]⟩
abbrev S1x32 : Shape := ⟨2, ![1, 32]⟩

abbrev nBuf : Space → Nat
  | .hbm => 39
  | .vmem => 18
  | .smem => 0
  | _ => 0

abbrev bufTy : (tb : Table) → Fin (tcTables nBuf tb) → BufTy
  | .hbm, ⟨0, _⟩ => ⟨S262144x64, .f32⟩
  | .hbm, ⟨1, _⟩ => ⟨S262144x32, .f32⟩
  | .hbm, ⟨2, _⟩ => ⟨S262144x32, .f32⟩
  | .hbm, ⟨3, _⟩ => ⟨S262144x32, .f32⟩
  | .hbm, ⟨4, _⟩ => ⟨S262144x64, .f32⟩
  | .hbm, ⟨5, _⟩ => ⟨S262144x64, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S1x64, .f32⟩
  | .hbm, ⟨11, _⟩ => ⟨S1x64, .f32⟩
  | .hbm, ⟨12, _⟩ => ⟨S32x32, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S128x32, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S32x32, .f32⟩
  | .hbm, ⟨31, _⟩ => ⟨S32x32, .f32⟩
  | .hbm, ⟨32, _⟩ => ⟨S32x32, .f32⟩
  | .hbm, ⟨33, _⟩ => ⟨S32x32, .f32⟩
  | .hbm, ⟨34, _⟩ => ⟨S32x32, .f32⟩
  | .hbm, ⟨35, _⟩ => ⟨S32x32, .f32⟩
  | .hbm, ⟨36, _⟩ => ⟨S32x32, .f32⟩
  | .hbm, ⟨37, _⟩ => ⟨S288x32, .f32⟩
  | .hbm, ⟨38, _⟩ => ⟨S262144x160, .f32⟩
  | .local _ .vmem, ⟨0, _⟩ => ⟨S4096x64, .f32⟩
  | .local _ .vmem, ⟨1, _⟩ => ⟨S4096x64, .f32⟩
  | .local _ .vmem, ⟨2, _⟩ => ⟨S4096x32, .f32⟩
  | .local _ .vmem, ⟨3, _⟩ => ⟨S4096x32, .f32⟩
  | .local _ .vmem, ⟨4, _⟩ => ⟨S4096x32, .f32⟩
  | .local _ .vmem, ⟨5, _⟩ => ⟨S4096x32, .f32⟩
  | .local _ .vmem, ⟨6, _⟩ => ⟨S4096x32, .f32⟩
  | .local _ .vmem, ⟨7, _⟩ => ⟨S4096x32, .f32⟩
  | .local _ .vmem, ⟨8, _⟩ => ⟨S4096x64, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S128x32, .f32⟩
  | .local _ .vmem, ⟨13, _⟩ => ⟨S288x32, .f32⟩
  | .local _ .vmem, ⟨14, _⟩ => ⟨S1x64, .f32⟩
  | .local _ .vmem, ⟨15, _⟩ => ⟨S1x64, .f32⟩
  | .local _ .vmem, ⟨16, _⟩ => ⟨S4096x160, .f32⟩
  | .local _ .vmem, ⟨17, _⟩ => ⟨S4096x160, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S288x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x160 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S32x32_S32x32_1_0 : S32x32.Transposes [1, 0] S32x32
  concatenates_S32x32_S32x32_S32x32_S32x32_S128x32_d0 : Shape.Concatenates [S32x32, S32x32, S32x32, S32x32] S128x32 0
  concatenates_S32x32_S32x32_S32x32_S32x32_S32x32_S32x32_S32x32_S32x32_S32x32_S288x32_d0 : Shape.Concatenates [S32x32, S32x32, S32x32, S32x32, S32x32, S32x32, S32x32, S32x32, S32x32] S288x32 0
  inb_S4096x64_S4096x64_0_0 : ∀ a, (![0, 0] : Fin 2 → Nat) a + S4096x64.size a ≤ S4096x64.size a
  h_S4096x64 : 0 < S4096x64.numel
  slices_S4096x64_o0_0_S4096x32 : S4096x64.Slices ![0, 0] S4096x32
  slices_S4096x64_o0_32_S4096x32 : S4096x64.Slices ![0, 32] S4096x32
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S288x32_S288x32_0_0 : ∀ a, (![0, 0] : Fin 2 → Nat) a + S288x32.size a ≤ S288x32.size a
  h_S288x32 : 0 < S288x32.numel
  shapeCasts_S288x32_S288x32 : S288x32.ShapeCasts S288x32
  slices_S128x32_o0_0_S32x32 : S128x32.Slices ![0, 0] S32x32
  slices_S128x32_o32_0_S32x32 : S128x32.Slices ![32, 0] S32x32
  slices_S128x32_o64_0_S32x32 : S128x32.Slices ![64, 0] S32x32
  slices_S128x32_o96_0_S32x32 : S128x32.Slices ![96, 0] S32x32
  slices_S288x32_o0_0_S32x32 : S288x32.Slices ![0, 0] S32x32
  slices_S288x32_o32_0_S32x32 : S288x32.Slices ![32, 0] S32x32
  slices_S288x32_o64_0_S32x32 : S288x32.Slices ![64, 0] S32x32
  slices_S288x32_o96_0_S32x32 : S288x32.Slices ![96, 0] S32x32
  slices_S288x32_o128_0_S32x32 : S288x32.Slices ![128, 0] S32x32
  slices_S288x32_o160_0_S32x32 : S288x32.Slices ![160, 0] S32x32
  slices_S288x32_o192_0_S32x32 : S288x32.Slices ![192, 0] S32x32
  slices_S288x32_o224_0_S32x32 : S288x32.Slices ![224, 0] S32x32
  slices_S288x32_o256_0_S32x32 : S288x32.Slices ![256, 0] S32x32
  concatenates_S4096x32_S4096x32_S4096x64_d1 : Shape.Concatenates [S4096x32, S4096x32] S4096x64 1
  inb_S1x64_S1x64_0_0 : ∀ a, (![0, 0] : Fin 2 → Nat) a + S1x64.size a ≤ S1x64.size a
  h_S1x64 : 0 < S1x64.numel
  broadcasts_S1x64_S4096x64 : S1x64.Broadcasts S4096x64
  slices_S1x64_o0_0_S1x32 : S1x64.Slices ![0, 0] S1x32
  broadcasts_S1x32_S4096x32 : S1x32.Broadcasts S4096x32
  slices_S1x64_o0_32_S1x32 : S1x64.Slices ![0, 32] S1x32
  concatenates_S4096x64_S4096x32_S4096x32_S4096x32_S4096x160_d1 : Shape.Concatenates [S4096x64, S4096x32, S4096x32, S4096x32] S4096x160 1
  inb_S4096x160_S4096x160_0_0 : ∀ a, (![0, 0] : Fin 2 → Nat) a + S4096x160.size a ≤ S4096x160.size a
  h_S4096x160 : 0 < S4096x160.numel
  dot_S4096x32_S32x32_S4096x32_1_0_0_1_n_n_wf : DotDims.WF S4096x32 S32x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S262144x32.size a
  hwx0_1 : ∀ i : grid0.Coords, EltTy.bits .f32 = 32 ∨ (Rect.block (s := S262144x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S262144x32.size a
  hwx0_2 : ∀ i : grid0.Coords, EltTy.bits .f32 = 32 ∨ (Rect.block (s := S262144x32) S4096x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S262144x32.size a
  hwx0_3 : ∀ i : grid0.Coords, EltTy.bits .f32 = 32 ∨ (Rect.block (s := S262144x32) S4096x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S262144x64.size a
  hwx0_4 : ∀ i : grid0.Coords, EltTy.bits .f32 = 32 ∨ (Rect.block (s := S262144x64) S4096x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S262144x64.size a
  hwx0_5 : ∀ i : grid0.Coords, EltTy.bits .f32 = 32 ∨ (Rect.block (s := S262144x64) S4096x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S128x32.size a
  hwx0_6 : ∀ i : grid0.Coords, EltTy.bits .f32 = 32 ∨ (Rect.block (s := S128x32) S128x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S288x32.size a ≤ S288x32.size a
  hwx0_7 : ∀ i : grid0.Coords, EltTy.bits .f32 = 32 ∨ (Rect.block (s := S288x32) S288x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x160.size a ≤ S262144x160.size a
  hwx0_10 : ∀ i : grid0.Coords, EltTy.bits .f32 = 32 ∨ (Rect.block (s := S262144x160) S4096x160.size (cc0_transform_10 i) (hinb0_10 i)).WholeWords (EltTy.packing .f32)

variable [Facts₀]

def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S288x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S4096x160.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x64 : Shape := ⟨2, ![262144, 64]⟩
abbrev S262144x32 : Shape := ⟨2, ![262144, 32]⟩
abbrev S32x32 : Shape := ⟨2, ![32, 32]⟩
abbrev S1x64 : Shape := ⟨2, ![1, 64]⟩
abbrev S_ : Shape := ⟨0, ![]⟩
abbrev S1x32 : Shape := ⟨2, ![1, 32]⟩
abbrev S262144x160 : Shape := ⟨2, ![262144, 160]⟩

abbrev nBuf : Space → Nat
  | .hbm => 91
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x32, .f32⟩
  | .hbm, ⟨2, _⟩ => ⟨S262144x32, .f32⟩
  | .hbm, ⟨3, _⟩ => ⟨S262144x32, .f32⟩
  | .hbm, ⟨4, _⟩ => ⟨S262144x64, .f32⟩
  | .hbm, ⟨5, _⟩ => ⟨S262144x64, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S1x64, .f32⟩
  | .hbm, ⟨11, _⟩ => ⟨S1x64, .f32⟩
  | .hbm, ⟨12, _⟩ => ⟨S262144x32, .f32⟩
  | .hbm, ⟨13, _⟩ => ⟨S262144x32, .f32⟩
  | .hbm, ⟨14, _⟩ => ⟨S32x32, .f32⟩
  | .hbm, ⟨15, _⟩ => ⟨S262144x32, .f32⟩
  | .hbm, ⟨16, _⟩ => ⟨S32x32, .f32⟩
  | .hbm, ⟨17, _⟩ => ⟨S262144x32, .f32⟩
  | .hbm, ⟨18, _⟩ => ⟨S262144x32, .f32⟩
  | .hbm, ⟨19, _⟩ => ⟨S32x32, .f32⟩
  | .hbm, ⟨20, _⟩ => ⟨S262144x32, .f32⟩
  | .hbm, ⟨21, _⟩ => ⟨S32x32, .f32⟩
  | .hbm, ⟨22, _⟩ => ⟨S262144x32, .f32⟩
  | .hbm, ⟨23, _⟩ => ⟨S262144x32, .f32⟩
  | .hbm, ⟨24, _⟩ => ⟨S32x32, .f32⟩
  | .hbm, ⟨25, _⟩ => ⟨S32x32, .f32⟩
  | .hbm, ⟨26, _⟩ => ⟨S262144x32, .f32⟩
  | .hbm, ⟨27, _⟩ => ⟨S32x32, .f32⟩
  | .hbm, ⟨28, _⟩ => ⟨S32x32, .f32⟩
  | .hbm, ⟨29, _⟩ => ⟨S262144x32, .f32⟩
  | .hbm, ⟨30, _⟩ => ⟨S_, .f32⟩
  | .hbm, ⟨31, _⟩ => ⟨S262144x32, .f32⟩
  | .hbm, ⟨32, _⟩ => ⟨S262144x32, .f32⟩
  | .hbm, ⟨33, _⟩ => ⟨S262144x32, .f32⟩
  | .hbm, ⟨34, _⟩ => ⟨S32x32, .f32⟩
  | .hbm, ⟨35, _⟩ => ⟨S32x32, .f32⟩
  | .hbm, ⟨36, _⟩ => ⟨S262144x32, .f32⟩
  | .hbm, ⟨37, _⟩ => ⟨S262144x32, .f32⟩
  | .hbm, ⟨38, _⟩ => ⟨S32x32, .f32⟩
  | .hbm, ⟨39, _⟩ => ⟨S32x32, .f32⟩
  | .hbm, ⟨40, _⟩ => ⟨S262144x32, .f32⟩
  | .hbm, ⟨41, _⟩ => ⟨S32x32, .f32⟩
  | .hbm, ⟨42, _⟩ => ⟨S32x32, .f32⟩
  | .hbm, ⟨43, _⟩ => ⟨S262144x32, .f32⟩
  | .hbm, ⟨44, _⟩ => ⟨S_, .f32⟩
  | .hbm, ⟨45, _⟩ => ⟨S262144x32, .f32⟩
  | .hbm, ⟨46, _⟩ => ⟨S262144x32, .f32⟩
  | .hbm, ⟨47, _⟩ => ⟨S262144x32, .f32⟩
  | .hbm, ⟨48, _⟩ => ⟨S32x32, .f32⟩
  | .hbm, ⟨49, _⟩ => ⟨S32x32, .f32⟩
  | .hbm, ⟨50, _⟩ => ⟨S262144x32, .f32⟩
  | .hbm, ⟨51, _⟩ => ⟨S262144x32, .f32⟩
  | .hbm, ⟨52, _⟩ => ⟨S32x32, .f32⟩
  | .hbm, ⟨53, _⟩ => ⟨S32x32, .f32⟩
  | .hbm, ⟨54, _⟩ => ⟨S262144x32, .f32⟩
  | .hbm, ⟨55, _⟩ => ⟨S32x32, .f32⟩
  | .hbm, ⟨56, _⟩ => ⟨S32x32, .f32⟩
  | .hbm, ⟨57, _⟩ => ⟨S32x32, .f32⟩
  | .hbm, ⟨58, _⟩ => ⟨S32x32, .f32⟩
  | .hbm, ⟨59, _⟩ => ⟨S262144x32, .f32⟩
  | .hbm, ⟨60, _⟩ => ⟨S262144x32, .f32⟩
  | .hbm, ⟨61, _⟩ => ⟨S32x32, .f32⟩
  | .hbm, ⟨62, _⟩ => ⟨S32x32, .f32⟩
  | .hbm, ⟨63, _⟩ => ⟨S262144x32, .f32⟩
  | .hbm, ⟨64, _⟩ => ⟨S262144x32, .f32⟩
  | .hbm, ⟨65, _⟩ => ⟨S262144x64, .f32⟩
  | .hbm, ⟨66, _⟩ => ⟨S262144x64, .f32⟩
  | .hbm, ⟨67, _⟩ => ⟨S262144x64, .f32⟩
  | .hbm, ⟨68, _⟩ => ⟨S262144x64, .f32⟩
  | .hbm, ⟨69, _⟩ => ⟨S1x64, .f32⟩
  | .hbm, ⟨70, _⟩ => ⟨S262144x64, .f32⟩
  | .hbm, ⟨71, _⟩ => ⟨S262144x64, .f32⟩
  | .hbm, ⟨72, _⟩ => ⟨S_, .f32⟩
  | .hbm, ⟨73, _⟩ => ⟨S1x64, .f32⟩
  | .hbm, ⟨74, _⟩ => ⟨S1x64, .i1⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S262144x32, .f32⟩
  | .hbm, ⟨81, _⟩ => ⟨S262144x32, .f32⟩
  | .hbm, ⟨82, _⟩ => ⟨S1x32, .f32⟩
  | .hbm, ⟨83, _⟩ => ⟨S262144x32, .f32⟩
  | .hbm, ⟨84, _⟩ => ⟨S262144x32, .f32⟩
  | .hbm, ⟨85, _⟩ => ⟨S262144x32, .f32⟩
  | .hbm, ⟨86, _⟩ => ⟨S262144x32, .f32⟩
  | .hbm, ⟨87, _⟩ => ⟨S1x32, .f32⟩
  | .hbm, ⟨88, _⟩ => ⟨S262144x32, .f32⟩
  | .hbm, ⟨89, _⟩ => ⟨S262144x32, .f32⟩
  | .hbm, ⟨90, _⟩ => ⟨S262144x160, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_1 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_2 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩

abbrev nD : Nat := 1
abbrev τ : Topo := Topo.v7x

variable {F : FTy → Type} [FloatOps F]

class Facts₀ : Prop where
  slices_S262144x64_S262144x32_0_0 : S262144x64.Slices ![0, 0] S262144x32
  slices_S262144x64_S262144x32_0_32 : S262144x64.Slices ![0, 32] S262144x32
  transposes_S32x32_S32x32_1_0 : S32x32.Transposes [1, 0] S32x32
  bcast_S_S262144x32 : S_.BroadcastsInDim S262144x32 (![] : Fin 0 → Fin S262144x32.rank)
  concatenates_S262144x32_S262144x32_S262144x64_d1 : Shape.Concatenates [S262144x32, S262144x32] S262144x64 1
  bcast_S1x64_S262144x64_0_1 : S1x64.BroadcastsInDim S262144x64 (![0, 1] : Fin 2 → Fin S262144x64.rank)
  bcast_S_S1x64 : S_.BroadcastsInDim S1x64 (![] : Fin 0 → Fin S1x64.rank)
  slices_S1x64_S1x32_0_0 : S1x64.Slices ![0, 0] S1x32
  bcast_S1x32_S262144x32_0_1 : S1x32.BroadcastsInDim S262144x32 (![0, 1] : Fin 2 → Fin S262144x32.rank)
  slices_S1x64_S1x32_0_32 : S1x64.Slices ![0, 32] S1x32
  concatenates_S262144x64_S262144x32_S262144x32_S262144x32_S262144x160_d1 : Shape.Concatenates [S262144x64, S262144x32, S262144x32, S262144x32] S262144x160 1
  dot_S262144x32_S32x32_S262144x32_1_0_0_1_n_n_wf : DotDims.WF S262144x32 S32x32 S262144x32 [1] [0] [0] [1] [] []

variable [Facts₀]

def dot_S262144x32_S32x32_S262144x32_1_0_0_1_n_n : DotDims S262144x32 S32x32 S262144x32 where
  lhsContracting := [1]
  rhsContracting := [0]
  lhsNonContracting := [0]
  rhsNonContracting := [1]
  lhsBatch := []
  rhsBatch := []
  wf := dot_S262144x32_S32x32_S262144x32_1_0_0_1_n_n_wf

class Facts : Prop extends Facts₀ where

variable [Facts]
-- ==== Proof.KIFrame.lean ====
/-
  The frame of the kernel program, at any instance of the float operations.

  @main is twenty-six host operations (four transposes stacked into a 128 x 32 slab of mean weights; nine
  entrywise products or sums of products, transposed and stacked into a 288 x 32 slab of covariance weights)
  followed by one pipelined region over 64 grid points. Point t stages rows 4096 t .. 4096 t + 4095 of the six
  row-blocked arguments and, once, the two slabs and the two 1 x 64 rows; the body loads every staged block whole,
  computes, and stores one whole 4096 x 160 block of the result.

  Here: what core c's buffers hold when the region is entered (`V`), that no host operation writes an argument,
  each window's block at a point (`iblk`), what the body leaves in the result's staging buffer as a function of the ten
  staged blocks (`outBlock`), the body's triple, the pipeline's proof data, and the run of @main to the library's
  frame post, from which the frame claim is read.
-/
import proofs.«102485_j84937273246072_1_alg».proof.Proof.Gen.KernelIdeal.Launch
import proofs.«102485_j84937273246072_1_alg».proof.Proof.Gen.KernelIdeal.Skeleton
import proofs.«102485_j84937273246072_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the twenty-six host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes its own result buffer only (a transpose, a product, a sum, a stacking: one result
    each), and no result buffer is an argument: decided reference by reference. -/
local macro "arg_unwritten" : tactic => `(tactic| (
  refine StableHlo.after_of_forall_not_mem _ _ (List.forall_iff_forall_mem.mp ?_)
  simp only [hostOps0, List.Forall, StableHlo.nullary_writes, StableHlo.unary_writes, StableHlo.binary_writes,
    StableHlo.nary_writes, Finset.mem_singleton]
  repeat' apply And.intro
  all_goals exact StableHlo.devRef_ne_of_ne (by decide)))

theorem V_main_arg0 (c : Dev nD) : V m c main_arg0 = m ((c : Thread nD τ).loc main_arg0) := by arg_unwritten
theorem V_main_arg1 (c : Dev nD) : V m c main_arg1 = m ((c : Thread nD τ).loc main_arg1) := by arg_unwritten
theorem V_main_arg2 (c : Dev nD) : V m c main_arg2 = m ((c : Thread nD τ).loc main_arg2) := by arg_unwritten
theorem V_main_arg3 (c : Dev nD) : V m c main_arg3 = m ((c : Thread nD τ).loc main_arg3) := by arg_unwritten
theorem V_main_arg4 (c : Dev nD) : V m c main_arg4 = m ((c : Thread nD τ).loc main_arg4) := by arg_unwritten
theorem V_main_arg5 (c : Dev nD) : V m c main_arg5 = m ((c : Thread nD τ).loc main_arg5) := by arg_unwritten
theorem V_main_arg6 (c : Dev nD) : V m c main_arg6 = m ((c : Thread nD τ).loc main_arg6) := by arg_unwritten
theorem V_main_arg7 (c : Dev nD) : V m c main_arg7 = m ((c : Thread nD τ).loc main_arg7) := by arg_unwritten
theorem V_main_arg8 (c : Dev nD) : V m c main_arg8 = m ((c : Thread nD τ).loc main_arg8) := by arg_unwritten
theorem V_main_arg9 (c : Dev nD) : V m c main_arg9 = m ((c : Thread nD τ).loc main_arg9) := by arg_unwritten
theorem V_main_arg10 (c : Dev nD) : V m c main_arg10 = m ((c : Thread nD τ).loc main_arg10) := by arg_unwritten
theorem V_main_arg11 (c : Dev nD) : V m c main_arg11 = m ((c : Thread nD τ).loc main_arg11) := by arg_unwritten

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the result's staging buffer -/

abbrev rPm : Rect S4096x64 := Rect.unit (s := S4096x64) ![0, 0] S4096x64.size inb_S4096x64_S4096x64_0_0
abbrev rCov : Rect S4096x32 := Rect.unit (s := S4096x32) ![0, 0] S4096x32.size inb_S4096x32_S4096x32_0_0
abbrev rWm : Rect S128x32 := Rect.unit (s := S128x32) ![0, 0] S128x32.size inb_S128x32_S128x32_0_0
abbrev rWc : Rect S288x32 := Rect.unit (s := S288x32) ![0, 0] S288x32.size inb_S288x32_S288x32_0_0
abbrev rRow : Rect S1x64 := Rect.unit (s := S1x64) ![0, 0] S1x64.size inb_S1x64_S1x64_0_0
abbrev rOut : Rect S4096x160 := Rect.unit (s := S4096x160) ![0, 0] S4096x160.size inb_S4096x160_S4096x160_0_0

/-- The stored 4096 x 160 value from the ten loaded blocks: columns 0..63 the new mean, 64..95 the new upper
    covariance, 96..127 the new lower covariance, 128..159 the new side covariance. -/
def outVal (x0 : Vec F S4096x64 .f32) (x1 x2 x3 : Vec F S4096x32 .f32) (x4 x5 : Vec F S4096x64 .f32)
    (x6 : Vec F S128x32 .f32) (x7 : Vec F S288x32 .f32) (x8 x9 : Vec F S1x64 .f32) : FVec F S4096x160 .f32 :=
  k0_pay1
    (k0_pay20 (k0_pay4 (View.ld x1 rCov)) (k0_pay5 (View.ld x2 rCov)) (k0_pay6 (View.ld x3 rCov))
      (k0_pay15 (View.ld x7 rWc)) (k0_pay16 (View.ld x7 rWc)) (k0_pay17 (View.ld x7 rWc)))
    (k0_pay21 (k0_pay9 (View.ld x0 rPm) (View.ld x6 rWm)) (k0_pay10 (View.ld x0 rPm) (View.ld x6 rWm))
      (View.ld x4 rPm) (View.ld x8 rRow))
    (k0_pay24 (k0_pay5 (View.ld x2 rCov)) (k0_pay11 (View.ld x7 rWc)) (k0_pay18 (View.ld x1 rCov) (View.ld x7 rWc))
      (k0_pay19 (View.ld x3 rCov) (View.ld x7 rWc)) (View.ld x5 rPm) (View.ld x8 rRow) (View.ld x9 rRow))
    (k0_pay25 (k0_pay4 (View.ld x1 rCov)) (k0_pay5 (View.ld x2 rCov)) (k0_pay6 (View.ld x3 rCov))
      (k0_pay12 (View.ld x7 rWc)) (k0_pay13 (View.ld x7 rWc)) (k0_pay14 (View.ld x7 rWc))
      (View.ld x5 rPm) (View.ld x8 rRow) (View.ld x9 rRow))

/-- The result's staging buffer after the body: its one whole-block store. -/
def outBlock (x0 : Vec F S4096x64 .f32) (x1 x2 x3 : Vec F S4096x32 .f32) (x4 x5 : Vec F S4096x64 .f32)
    (x6 : Vec F S128x32 .f32) (x7 : Vec F S288x32 .f32) (x8 x9 : Vec F S1x64 .f32) : Vec F S4096x160 .f32 :=
  View.canon [⟨rOut, outVal x0 x1 x2 x3 x4 x5 x6 x7 x8 x9⟩]

/-- The one store covers the buffer. -/
theorem outCover (p0 : Vec F S4096x160 .f32) (y : S4096x160.Idx) :
    ∃ pc ∈ ([⟨rOut, p0⟩] : List (View.Piece (Elt F) S4096x160 .f32)), y ∈ pc.1.set :=
  View.cover_of_tiled [⟨rOut, p0⟩] S4096x160.size (by rfl) y

/-! ## The body's triple -/

set_option maxHeartbeats 4000000 in
/-- The body on whole staging memrefs, the ten inputs' at contents `x0 … x9` and the result's at anything, runs to
    the continuation holding the inputs' as they were and the result's at `outBlock` of them. -/
theorem sound_kernel (c : Dev nD) (E : Set ℕ) (i : grid0.Coords)
    (arg1 : Memref sig .tc .vmem S4096x64 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S4096x32 .f32) (harg4 : arg4.IsWhole)
    (arg5 : Memref sig .tc .vmem S4096x64 .f32) (harg5 : arg5.IsWhole) (arg6 : Memref sig .tc .vmem S4096x64 .f32) (harg6 : arg6.IsWhole)
    (arg7 : Memref sig .tc .vmem S128x32 .f32) (harg7 : arg7.IsWhole) (arg8 : Memref sig .tc .vmem S288x32 .f32) (harg8 : arg8.IsWhole)
    (arg9 : Memref sig .tc .vmem S1x64 .f32) (harg9 : arg9.IsWhole) (arg10 : Memref sig .tc .vmem S1x64 .f32) (harg10 : arg10.IsWhole)
    (arg11 : Memref sig .tc .vmem S4096x160 .f32) (harg11 : arg11.IsWhole)
    (x0 : Vec F S4096x64 .f32) (x1 x2 x3 : Vec F S4096x32 .f32) (x4 x5 : Vec F S4096x64 .f32)
    (x6 : Vec F S128x32 .f32) (x7 : Vec F S288x32 .f32) (x8 x9 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (outBlock x0 x1 x2 x3 x4 x5 x6 x7 x8 x9)) -∗ K ⟨⟩))
      ⊢ wp frame (wpE (defs₀ (F := F)) Variants.none c none) E
          (cc0__predict_kernel i arg1 harg1 arg2 harg2 arg3 harg3 arg4 harg4 arg5 harg5 arg6 harg6 arg7 harg7 arg8 harg8 arg9 harg9 arg10 harg10 arg11 harg11) K := by
  simp only [cc0__predict_kernel_eq_skeleton]; unfold cc0__predict_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (outCover _)

/-! ## The pipeline's proof data -/

/-- The arrays as the region finds them; after the body at point `t` each input's buffer at its block and the
    result's at `outBlock` of the input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlock (iblk m c 0 t) (iblk m c 1 t) (iblk m c 2 t) (iblk m c 3 t) (iblk m c 4 t) (iblk m c 5 t)
        (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t =
    outBlock (iblk m c 0 t) (iblk m c 1 t) (iblk m c 2 t) (iblk m c 3 t) (iblk m c 4 t) (iblk m c 5 t)
      (iblk m c 6 t) (iblk m c 7 t) (iblk m c 8 t) (iblk m c 9 t) := by dsimp only [dats]

/-- An input window's current staging buffer holds its block at every point, fetched there or not: where it is not
    fetched the block index has not moved, and the windows are uncut and never idle. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as launched: a staged argument is an input window's array, which the pipeline only
    reads; the four 32 x 32 matrices are staged by no window and the region leaves them as it found them; and no
    host operation wrote any of the twelve. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).1 2).trans ((((dats m) 0 c).arrAt_in 2 rfl _).trans ((A_eq m c 2).trans (V_main_arg2 m c))),
     ((h c).1 3).trans ((((dats m) 0 c).arrAt_in 3 rfl _).trans ((A_eq m c 3).trans (V_main_arg3 m c))),
     ((h c).1 4).trans ((((dats m) 0 c).arrAt_in 4 rfl _).trans ((A_eq m c 4).trans (V_main_arg4 m c))),
     ((h c).1 5).trans ((((dats m) 0 c).arrAt_in 5 rfl _).trans ((A_eq m c 5).trans (V_main_arg5 m c))),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c),
     ((h c).1 8).trans ((((dats m) 0 c).arrAt_in 8 rfl _).trans ((A_eq m c 8).trans (V_main_arg10 m c))),
     ((h c).1 9).trans ((((dats m) 0 c).arrAt_in 9 rfl _).trans ((A_eq m c 9).trans (V_main_arg11 m c)))⟩)
    (run_main m ρ)

end Cert.KernelIdeal.Frm

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.LibConcatCols.lean ====
/-
  Arrays laid side by side along the column axis, read at an entry.

  Two blocks of 32 columns joined into 64 columns: column q of the result is column q of the left block, column
  32 + q is column q of the right block. Four blocks of 64, 32, 32 and 32 columns joined into 160 columns: columns
  0..63 are the first block's, 64 + q, 96 + q and 128 + q are column q of the second, third and fourth. The number
  of rows is a variable; the row is untouched.
-/
import Idealize.ShloMosaic.Lib.Pipeline.Value
import Idealize.ShloMosaic.Lib.ValueIdx

noncomputable section

namespace Cert.ConcatCols

open Idealize.ShloMosaic Idealize.ShloMosaic.ValueIdx

variable {α : Type} {R : ℕ}

/-- Column q of two 32-column blocks side by side is column q of the left block. -/
theorem pair_left (x₁ x₂ : (⟨2, ![R, 32]⟩ : Shape).Idx → α)
    (h : Shape.Concatenates [(⟨2, ![R, 32]⟩ : Shape), ⟨2, ![R, 32]⟩] ⟨2, ![R, 64]⟩ 1) (p : Fin R) (q : Fin 32) :
    concatenate (⟨2, ![R, 64]⟩ : Shape) 1 [⟨_, x₁⟩, ⟨_, x₂⟩] h (ix2 p (⟨q.val, by omega⟩ : Fin 64)) = x₁ (ix2 p q) :=
  concatenate_pair_apply_left 1 x₁ x₂ h _ rfl (ix2 p q) (fun b => by match b with | ⟨0, _⟩ => rfl | ⟨1, _⟩ => rfl)

/-- Column 32 + q of two 32-column blocks side by side is column q of the right block. -/
theorem pair_right (x₁ x₂ : (⟨2, ![R, 32]⟩ : Shape).Idx → α)
    (h : Shape.Concatenates [(⟨2, ![R, 32]⟩ : Shape), ⟨2, ![R, 32]⟩] ⟨2, ![R, 64]⟩ 1) (p : Fin R) (q : Fin 32) :
    concatenate (⟨2, ![R, 64]⟩ : Shape) 1 [⟨_, x₁⟩, ⟨_, x₂⟩] h (ix2 p (⟨32 + q.val, by omega⟩ : Fin 64)) = x₂ (ix2 p q) :=
  concatenate_pair_apply_right 1 x₁ x₂ h _ rfl rfl (ix2 p q)
    (fun b hb => by match b, hb with | ⟨0, _⟩, _ => rfl | ⟨1, _⟩, hb => exact absurd rfl hb)
    (by show q.val + 32 = 32 + q.val; omega)

section Four

variable (x0 : (⟨2, ![R, 64]⟩ : Shape).Idx → α) (x1 x2 x3 : (⟨2, ![R, 32]⟩ : Shape).Idx → α)
  (h : Shape.Concatenates [(⟨2, ![R, 64]⟩ : Shape), ⟨2, ![R, 32]⟩, ⟨2, ![R, 32]⟩, ⟨2, ![R, 32]⟩] ⟨2, ![R, 160]⟩ 1) (p : Fin R)

/-- Columns 0..63 of the 64 | 32 | 32 | 32 layout are the first block's. -/
theorem four_first (j : Fin 64) :
    concatenate (⟨2, ![R, 160]⟩ : Shape) 1 [⟨_, x0⟩, ⟨_, x1⟩, ⟨_, x2⟩, ⟨_, x3⟩] h (ix2 p (⟨j.val, by omega⟩ : Fin 160)) = x0 (ix2 p j) :=
  concatenate_apply_piece 1 [⟨_, x0⟩, ⟨_, x1⟩, ⟨_, x2⟩, ⟨_, x3⟩] h (ix2 p (⟨j.val, by omega⟩ : Fin 160)) 0 (by simp) _ x0 rfl rfl 0 (by simp) (ix2 p j)
    (fun b hb => by match b, hb with | ⟨0, _⟩, _ => rfl | ⟨1, _⟩, hb => exact absurd rfl hb)
    (by show 0 + j.val = j.val; omega)

/-- Column 64 + q is column q of the second block. -/
theorem four_second (q : Fin 32) :
    concatenate (⟨2, ![R, 160]⟩ : Shape) 1 [⟨_, x0⟩, ⟨_, x1⟩, ⟨_, x2⟩, ⟨_, x3⟩] h (ix2 p (⟨64 + q.val, by omega⟩ : Fin 160)) = x1 (ix2 p q) :=
  concatenate_apply_piece 1 [⟨_, x0⟩, ⟨_, x1⟩, ⟨_, x2⟩, ⟨_, x3⟩] h (ix2 p (⟨64 + q.val, by omega⟩ : Fin 160)) 1 (by simp) _ x1 rfl rfl 64 (by simp) (ix2 p q)
    (fun b hb => by match b, hb with | ⟨0, _⟩, _ => rfl | ⟨1, _⟩, hb => exact absurd rfl hb)
    (by show 64 + q.val = 64 + q.val; rfl)

/-- Column 96 + q is column q of the third block. -/
theorem four_third (q : Fin 32) :
    concatenate (⟨2, ![R, 160]⟩ : Shape) 1 [⟨_, x0⟩, ⟨_, x1⟩, ⟨_, x2⟩, ⟨_, x3⟩] h (ix2 p (⟨96 + q.val, by omega⟩ : Fin 160)) = x2 (ix2 p q) :=
  concatenate_apply_piece 1 [⟨_, x0⟩, ⟨_, x1⟩, ⟨_, x2⟩, ⟨_, x3⟩] h (ix2 p (⟨96 + q.val, by omega⟩ : Fin 160)) 2 (by simp) _ x2 rfl rfl 96 (by simp) (ix2 p q)
    (fun b hb => by match b, hb with | ⟨0, _⟩, _ => rfl | ⟨1, _⟩, hb => exact absurd rfl hb)
    (by show 96 + q.val = 96 + q.val; rfl)

/-- Column 128 + q is column q of the fourth block. -/
theorem four_fourth (q : Fin 32) :
    concatenate (⟨2, ![R, 160]⟩ : Shape) 1 [⟨_, x0⟩, ⟨_, x1⟩, ⟨_, x2⟩, ⟨_, x3⟩] h (ix2 p (⟨128 + q.val, by omega⟩ : Fin 160)) = x3 (ix2 p q) :=
  concatenate_apply_piece 1 [⟨_, x0⟩, ⟨_, x1⟩, ⟨_, x2⟩, ⟨_, x3⟩] h (ix2 p (⟨128 + q.val, by omega⟩ : Fin 160)) 3 (by simp) _ x3 rfl rfl 128 (by simp) (ix2 p q)
    (fun b hb => by match b, hb with | ⟨0, _⟩, _ => rfl | ⟨1, _⟩, hb => exact absurd rfl hb)
    (by show 128 + q.val = 128 + q.val; rfl)

end Four

end Cert.ConcatCols

end
-- ==== Proof.Spec.lean ====
/-
  The predicted state, one entry at a time, on the extended reals.

  A row of the result has 160 columns: the new mean (64: an upper and a lower half of 32), the new upper covariance
  (32), the new lower covariance (32) and the new side covariance (32). With the state split into an upper and a
  lower half, the transition matrix into four 32 x 32 blocks t11, t12, t21, t22, and the covariance kept as its upper
  diagonal cu, its lower diagonal cl and its side diagonal cs:

    mean, half with blocks (ta, tb) at column c:   sum_k mu_k ta[q,k] + sum_k ml_k tb[q,k] + b[c] pm1[c]
    diagonal covariance with blocks (ta, tb) at c: sum_k cu_k ta[q,k]^2 + 2 sum_k cs_k ta[q,k] tb[q,k] + sum_k cl_k tb[q,k]^2
                                                   + b[c]^2 cov1[c] + noise[c]
    side covariance:                               sum_k cu_k t21[q,k] t11[q,k] + sum_k cs_k (t22[q,k] t11[q,k] + t21[q,k] t12[q,k])
                                                   + sum_k cl_k t22[q,k] t12[q,k]

  where noise[c] is exp(lp[c]) for lp[c] < 0 and lp[c] + 1 otherwise. Every sum is written in the order and grouping
  both programs use, so that no law of the extended reals beyond the meaning of each operation is needed to meet it.
-/
import Idealize.ShloMosaic.PureOps.Ideal
import Idealize.ShloMosaic.Lib.ValueIdx

noncomputable section

namespace Cert.Predict

open Idealize.ShloMosaic Idealize.ShloMosaic.ValueIdx

abbrev Big64 : Shape := ⟨2, ![262144, 64]⟩
abbrev Big32 : Shape := ⟨2, ![262144, 32]⟩
abbrev Sq : Shape := ⟨2, ![32, 32]⟩
abbrev Row64 : Shape := ⟨2, ![1, 64]⟩

/-- Column q of the left half of a 64-column row. -/
abbrev lo (q : Fin 32) : Fin 64 := ⟨q.val, by omega⟩
/-- Column q of the right half of a 64-column row. -/
abbrev hi (q : Fin 32) : Fin 64 := ⟨32 + q.val, by omega⟩

/-- The literal 2. -/
abbrev two : Ideal .f32 := Ideal.ofBits .f32 0x40000000#32

/-- Row p of the left half of x against row q of w. -/
def dotLo (x : FVec Ideal Big64 .f32) (w : FVec Ideal Sq .f32) (p : Fin 262144) (q : Fin 32) : Ideal .f32 :=
  ∑ k : Fin 32, x (ix2 p (lo k)) * w (ix2 q k)

/-- Row p of the right half of x against row q of w. -/
def dotHi (x : FVec Ideal Big64 .f32) (w : FVec Ideal Sq .f32) (p : Fin 262144) (q : Fin 32) : Ideal .f32 :=
  ∑ k : Fin 32, x (ix2 p (hi k)) * w (ix2 q k)

/-- Row p of x against row q of the entrywise product of w1 and w2. -/
def dotProd (x : FVec Ideal Big32 .f32) (w1 w2 : FVec Ideal Sq .f32) (p : Fin 262144) (q : Fin 32) : Ideal .f32 :=
  ∑ k : Fin 32, x (ix2 p k) * (w1 (ix2 q k) * w2 (ix2 q k))

/-- Row p of x against row q of w1 w2 + w3 w4 (entrywise). -/
def dotProd2 (x : FVec Ideal Big32 .f32) (w1 w2 w3 w4 : FVec Ideal Sq .f32) (p : Fin 262144) (q : Fin 32) : Ideal .f32 :=
  ∑ k : Fin 32, x (ix2 p k) * (w1 (ix2 q k) * w2 (ix2 q k) + w3 (ix2 q k) * w4 (ix2 q k))

/-- The process noise at column c: exp of the logarithm where it is negative, the logarithm plus one elsewhere. -/
def noise (lp : FVec Ideal Row64 .f32) (c : Fin 64) : Ideal .f32 :=
  Scalar.select (FloatOps.cmpf .olt (lp (ix2 0 c)) (Ideal.ofBits .f32 0x00000000#32))
    (Ideal.exp (lp (ix2 0 c))) (lp (ix2 0 c) + Ideal.ofBits .f32 0x3F800000#32)

/-- One half of the new mean, at row p and column q of the half, whose column in the 64-column row is c. -/
def meanHalf (pm0 pm1 : FVec Ideal Big64 .f32) (ta tb : FVec Ideal Sq .f32) (b : FVec Ideal Row64 .f32)
    (p : Fin 262144) (q : Fin 32) (c : Fin 64) : Ideal .f32 :=
  (dotLo pm0 ta p q + dotHi pm0 tb p q) + b (ix2 0 c) * pm1 (ix2 p c)

/-- A diagonal block of the new covariance (upper with (t11, t12), lower with (t21, t22)). -/
def covDiag (cu cl cs : FVec Ideal Big32 .f32) (cov1 : FVec Ideal Big64 .f32) (ta tb : FVec Ideal Sq .f32)
    (b lp : FVec Ideal Row64 .f32) (p : Fin 262144) (q : Fin 32) (c : Fin 64) : Ideal .f32 :=
  (((dotProd cu ta ta p q + two * dotProd cs ta tb p q) + dotProd cl tb tb p q)
    + (b (ix2 0 c) * b (ix2 0 c)) * cov1 (ix2 p c)) + noise lp c

/-- The side block of the new covariance. -/
def covSide (cu cl cs : FVec Ideal Big32 .f32) (t11 t12 t21 t22 : FVec Ideal Sq .f32) (p : Fin 262144) (q : Fin 32) : Ideal .f32 :=
  (dotProd cu t21 t11 p q + dotProd2 cs t22 t11 t21 t12 p q) + dotProd cl t22 t12 p q

end Cert.Predict

end
-- ==== Proof.BlockValue.lean ====
/-
  The kernel's stored block at an entry.

  At a grid point the body holds ten blocks: x0 (4096 rows of post_mean0), x1, x2, x3 (of cu0, cl0, cs0), x4, x5 (of
  post_mean1, cov1), the 128 x 32 slab x6 of mean weights, the 288 x 32 slab x7 of covariance weights, and the rows
  x8 = b_tm, x9 = log_pn. Every cast to bf16 is the identity on the extended reals and every matrix product into
  the zero accumulator is the sum over the 32 contracted positions, so each of the five column blocks of the stored
  4096 x 160 value is, entry by entry, the specification's at the block's rows — given what the blocks are: rows
  base .. base + 4095 of the arrays, and slabs whose 32-row pieces are the transposed weight matrices.
-/
import proofs.«102485_j84937273246072_1_alg».proof.Proof.Gen.KernelIdeal.Skeleton
import proofs.«102485_j84937273246072_1_alg».proof.Proof.LibPlainDot
import proofs.«102485_j84937273246072_1_alg».proof.Proof.LibConcatCols
import proofs.«102485_j84937273246072_1_alg».proof.Proof.Spec
import Idealize.ShloMosaic.Lib.Pipeline.Value
import Idealize.ShloMosaic.Lib.ValueIdx
import Idealize.ShloMosaic.Lib.ValueLayout

noncomputable section

namespace Cert.KernelIdeal.BlockValue

open Idealize.ShloMosaic Idealize.ShloMosaic.ValueIdx
open Cert.KernelIdeal Cert.KernelIdeal.Gen Cert.Predict

/-! ## The pieces -/

/-- Entry (k, q) of the 32-row slice at row offset o of a slab with 32 columns, after the identity shape cast and the
    cast to bf16: entry (o + k, q) of the slab. -/
theorem slabSlice {R : ℕ} (x : Vec Ideal (⟨2, ![R, 32]⟩ : Shape) .f32) (o : ℕ) (ho : o + 32 ≤ R)
    (hc : (⟨2, ![R, 32]⟩ : Shape).ShapeCasts ⟨2, ![R, 32]⟩) (hb : FTy.bf16.bits < FTy.f32.bits)
    (hs : (⟨2, ![R, 32]⟩ : Shape).Slices ![o, 0] ⟨2, ![32, 32]⟩) (k q : Fin 32) :
    extractStridedSlice (⟨2, ![32, 32]⟩ : Shape) ![o, 0] (truncf (F := Ideal) .bf16 (shapeCast (⟨2, ![R, 32]⟩ : Shape) x hc) hb) hs (ix2 k q)
      = x (ix2 ⟨o + k.val, by omega⟩ q) := by
  rw [shapeCast_self]
  exact extractStridedSlice_apply _ _ hs (ix2 k q) (ix2 ⟨o + k.val, by omega⟩ q) (fun a => by
    match a with
    | ⟨0, _⟩ => rfl
    | ⟨1, _⟩ => simp [ix2])

/-- A product of a 4096 x 32 block with the slice at offset o of a slab, at (r, q). -/
theorem mmSlab {R : ℕ} (xb : FVec Ideal S4096x32 .bf16) (W : Vec Ideal (⟨2, ![R, 32]⟩ : Shape) .f32) (o : ℕ) (ho : o + 32 ≤ R)
    (hc : (⟨2, ![R, 32]⟩ : Shape).ShapeCasts ⟨2, ![R, 32]⟩) (hb : FTy.bf16.bits < FTy.f32.bits)
    (hs : (⟨2, ![R, 32]⟩ : Shape).Slices ![o, 0] ⟨2, ![32, 32]⟩) (r : Fin 4096) (q : Fin 32) :
    matmul dot_S4096x32_S32x32_S4096x32_1_0_0_1_n_n none xb
        (extractStridedSlice (⟨2, ![32, 32]⟩ : Shape) ![o, 0] (truncf (F := Ideal) .bf16 (shapeCast (⟨2, ![R, 32]⟩ : Shape) W hc) hb) hs)
        (constant S4096x32 .f32 0x00000000#32) (ix2 r q)
      = ∑ k : Fin 32, xb (ix2 r k) * W (ix2 ⟨o + k.val, by omega⟩ q) := by
  refine (Cert.PlainDot.matmul_zero_apply dot_S4096x32_S32x32_S4096x32_1_0_0_1_n_n rfl rfl rfl rfl rfl rfl none _ _ r q).trans ?_
  exact Finset.sum_congr rfl fun k _ => congrArg (xb (ix2 r k) * ·) (slabSlice W o ho hc hb hs k q)

/-- The left half of a 4096 x 64 block, cast to bf16, at (r, k). -/
theorem leftHalf (x0 : Vec Ideal S4096x64 .f32) (r : Fin 4096) (k : Fin 32) : k0_pay2 x0 (ix2 r k) = x0 (ix2 r (lo k)) := by
  show extractStridedSlice S4096x32 ![0, 0] x0 slices_S4096x64_o0_0_S4096x32 (ix2 r k) = _
  exact extractStridedSlice_apply ![0, 0] x0 slices_S4096x64_o0_0_S4096x32 (ix2 r k) (ix2 r (lo k)) (fun a => by
    match a with
    | ⟨0, _⟩ => simp [ix2]
    | ⟨1, _⟩ => simp [ix2])

/-- The right half of a 4096 x 64 block, cast to bf16, at (r, k). -/
theorem rightHalf (x0 : Vec Ideal S4096x64 .f32) (r : Fin 4096) (k : Fin 32) : k0_pay3 x0 (ix2 r k) = x0 (ix2 r (hi k)) := by
  show extractStridedSlice S4096x32 ![0, 32] x0 slices_S4096x64_o0_32_S4096x32 (ix2 r k) = _
  exact extractStridedSlice_apply ![0, 32] x0 slices_S4096x64_o0_32_S4096x32 (ix2 r k) (ix2 r (hi k)) (fun a => by
    match a with
    | ⟨0, _⟩ => simp [ix2]
    | ⟨1, _⟩ => simp [ix2])

/-- b squared times the covariance block, at (r, c). -/
theorem scaledCov (x5 : Vec Ideal S4096x64 .f32) (x8 : Vec Ideal S1x64 .f32) (r : Fin 4096) (c : Fin 64) :
    k0_pay22 x5 x8 (ix2 r c) = (x8 (ix2 0 c) * x8 (ix2 0 c)) * x5 (ix2 r c) := by
  show _ * _ = _
  refine congrArg₂ (· * ·) ((broadcastTo_apply (s := S1x64) (t := S4096x64) _ broadcasts_S1x64_S4096x64 (ix2 r c) (ix2 (0 : Fin 1) c) (fun a => by
    match a with
    | ⟨0, _⟩ => simp [ix2]
    | ⟨1, _⟩ => simp [ix2])).trans rfl) rfl

/-- The noise row at column c. -/
theorem noiseRow (x9 : Vec Ideal S1x64 .f32) (c : Fin 64) : k0_pay23 x9 (ix2 0 c) = noise x9 c := rfl

/-- A row broadcast down 4096 rows, at (r, c). -/
theorem bcastRow64 (x8 : Vec Ideal S1x64 .f32) (r : Fin 4096) (c : Fin 64) :
    broadcastTo S4096x64 x8 broadcasts_S1x64_S4096x64 (ix2 r c) = x8 (ix2 (0 : Fin 1) c) :=
  broadcastTo_apply (s := S1x64) (t := S4096x64) x8 broadcasts_S1x64_S4096x64 (ix2 r c) (ix2 (0 : Fin 1) c) (fun a => by
    match a with
    | ⟨0, _⟩ => simp [ix2]
    | ⟨1, _⟩ => simp [ix2])

/-- A product with an explicit right operand, at (r, q). -/
theorem mm (l : FVec Ideal S4096x32 .bf16) (w : FVec Ideal S32x32 .bf16) (r : Fin 4096) (q : Fin 32) :
    matmul dot_S4096x32_S32x32_S4096x32_1_0_0_1_n_n none l w (constant S4096x32 .f32 0x00000000#32) (ix2 r q)
      = ∑ k : Fin 32, l (ix2 r k) * w (ix2 k q) :=
  Cert.PlainDot.matmul_zero_apply dot_S4096x32_S32x32_S4096x32_1_0_0_1_n_n rfl rfl rfl rfl rfl rfl none l w r q

/-! ## The payloads at an entry -/

/-- The upper half of the block's new mean before the b * pm1 term: the two products against rows 0..31 and 32..63 of
    the mean-weight slab. -/
theorem meanProdU (x0 : Vec Ideal S4096x64 .f32) (x6 : Vec Ideal S128x32 .f32) (r : Fin 4096) (q : Fin 32) :
    k0_pay9 x0 x6 (ix2 r q) = (∑ k : Fin 32, x0 (ix2 r (lo k)) * x6 (ix2 ⟨0 + k.val, by omega⟩ q))
      + (∑ k : Fin 32, x0 (ix2 r (hi k)) * x6 (ix2 ⟨32 + k.val, by omega⟩ q)) := by
  unfold k0_pay9 k0_pay7
  show _ + _ = _
  refine congrArg₂ (· + ·) ((mmSlab (k0_pay2 x0) x6 0 (by omega) _ _ _ r q).trans ?_) ((mmSlab (k0_pay3 x0) x6 32 (by omega) _ _ _ r q).trans ?_)
  · exact Finset.sum_congr rfl fun k _ => congrArg (· * _) (leftHalf x0 r k)
  · exact Finset.sum_congr rfl fun k _ => congrArg (· * _) (rightHalf x0 r k)

/-- The lower half: rows 64..95 and 96..127 of the slab. -/
theorem meanProdL (x0 : Vec Ideal S4096x64 .f32) (x6 : Vec Ideal S128x32 .f32) (r : Fin 4096) (q : Fin 32) :
    k0_pay10 x0 x6 (ix2 r q) = (∑ k : Fin 32, x0 (ix2 r (lo k)) * x6 (ix2 ⟨64 + k.val, by omega⟩ q))
      + (∑ k : Fin 32, x0 (ix2 r (hi k)) * x6 (ix2 ⟨96 + k.val, by omega⟩ q)) := by
  unfold k0_pay10 k0_pay7
  show _ + _ = _
  refine congrArg₂ (· + ·) ((mmSlab (k0_pay2 x0) x6 64 (by omega) _ _ _ r q).trans ?_) ((mmSlab (k0_pay3 x0) x6 96 (by omega) _ _ _ r q).trans ?_)
  · exact Finset.sum_congr rfl fun k _ => congrArg (· * _) (leftHalf x0 r k)
  · exact Finset.sum_congr rfl fun k _ => congrArg (· * _) (rightHalf x0 r k)

/-- The new mean at a column of its left half. -/
theorem meanAtLo (v23 v26 : FVec Ideal S4096x32 .f32) (x4 : Vec Ideal S4096x64 .f32) (x8 : Vec Ideal S1x64 .f32) (r : Fin 4096) (q : Fin 32) :
    k0_pay21 v23 v26 x4 x8 (ix2 r (lo q)) = v23 (ix2 r q) + x8 (ix2 (0 : Fin 1) (lo q)) * x4 (ix2 r (lo q)) := by
  unfold k0_pay21
  show _ + _ * _ = _
  exact congrArg₂ (· + ·) (Cert.ConcatCols.pair_left v23 v26 _ r q) (congrArg (· * _) (bcastRow64 x8 r (lo q)))

/-- The new mean at a column of its right half. -/
theorem meanAtHi (v23 v26 : FVec Ideal S4096x32 .f32) (x4 : Vec Ideal S4096x64 .f32) (x8 : Vec Ideal S1x64 .f32) (r : Fin 4096) (q : Fin 32) :
    k0_pay21 v23 v26 x4 x8 (ix2 r (hi q)) = v26 (ix2 r q) + x8 (ix2 (0 : Fin 1) (hi q)) * x4 (ix2 r (hi q)) := by
  unfold k0_pay21
  show _ + _ * _ = _
  exact congrArg₂ (· + ·) (Cert.ConcatCols.pair_right v23 v26 _ r q) (congrArg (· * _) (bcastRow64 x8 r (hi q)))

/-- The left half of b squared times the covariance block, sliced out, at (r, q). -/
theorem scaledCovLo (x5 : Vec Ideal S4096x64 .f32) (x8 : Vec Ideal S1x64 .f32) (r : Fin 4096) (q : Fin 32) :
    extractStridedSlice S4096x32 ![0, 0] (k0_pay22 x5 x8) slices_S4096x64_o0_0_S4096x32 (ix2 r q)
      = (x8 (ix2 (0 : Fin 1) (lo q)) * x8 (ix2 (0 : Fin 1) (lo q))) * x5 (ix2 r (lo q)) :=
  (extractStridedSlice_apply ![0, 0] (k0_pay22 x5 x8) slices_S4096x64_o0_0_S4096x32 (ix2 r q) (ix2 r (lo q)) (fun a => by
    match a with
    | ⟨0, _⟩ => simp [ix2]
    | ⟨1, _⟩ => simp [ix2])).trans (scaledCov x5 x8 r (lo q))

/-- The right half. -/
theorem scaledCovHi (x5 : Vec Ideal S4096x64 .f32) (x8 : Vec Ideal S1x64 .f32) (r : Fin 4096) (q : Fin 32) :
    extractStridedSlice S4096x32 ![0, 32] (k0_pay22 x5 x8) slices_S4096x64_o0_32_S4096x32 (ix2 r q)
      = (x8 (ix2 (0 : Fin 1) (hi q)) * x8 (ix2 (0 : Fin 1) (hi q))) * x5 (ix2 r (hi q)) :=
  (extractStridedSlice_apply ![0, 32] (k0_pay22 x5 x8) slices_S4096x64_o0_32_S4096x32 (ix2 r q) (ix2 r (hi q)) (fun a => by
    match a with
    | ⟨0, _⟩ => simp [ix2]
    | ⟨1, _⟩ => simp [ix2])).trans (scaledCov x5 x8 r (hi q))

/-- The left half of the noise row, broadcast down the rows, at (r, q). -/
theorem noiseLo (x9 : Vec Ideal S1x64 .f32) (r : Fin 4096) (q : Fin 32) :
    broadcastTo S4096x32 (extractStridedSlice S1x32 ![0, 0] (k0_pay23 x9) slices_S1x64_o0_0_S1x32) broadcasts_S1x32_S4096x32 (ix2 r q)
      = noise x9 (lo q) :=
  (broadcastTo_apply (s := S1x32) (t := S4096x32) _ broadcasts_S1x32_S4096x32 (ix2 r q) (ix2 (0 : Fin 1) q) (fun a => by
    match a with
    | ⟨0, _⟩ => simp [ix2]
    | ⟨1, _⟩ => simp [ix2])).trans
  ((extractStridedSlice_apply ![0, 0] (k0_pay23 x9) slices_S1x64_o0_0_S1x32 (ix2 (0 : Fin 1) q) (ix2 (0 : Fin 1) (lo q)) (fun a => by
    match a with
    | ⟨0, _⟩ => simp [ix2]
    | ⟨1, _⟩ => simp [ix2])).trans (noiseRow x9 (lo q)))

/-- The right half. -/
theorem noiseHi (x9 : Vec Ideal S1x64 .f32) (r : Fin 4096) (q : Fin 32) :
    broadcastTo S4096x32 (extractStridedSlice S1x32 ![0, 32] (k0_pay23 x9) slices_S1x64_o0_32_S1x32) broadcasts_S1x32_S4096x32 (ix2 r q)
      = noise x9 (hi q) :=
  (broadcastTo_apply (s := S1x32) (t := S4096x32) _ broadcasts_S1x32_S4096x32 (ix2 r q) (ix2 (0 : Fin 1) q) (fun a => by
    match a with
    | ⟨0, _⟩ => simp [ix2]
    | ⟨1, _⟩ => simp [ix2])).trans
  ((extractStridedSlice_apply ![0, 32] (k0_pay23 x9) slices_S1x64_o0_32_S1x32 (ix2 (0 : Fin 1) q) (ix2 (0 : Fin 1) (hi q)) (fun a => by
    match a with
    | ⟨0, _⟩ => simp [ix2]
    | ⟨1, _⟩ => simp [ix2])).trans (noiseRow x9 (hi q)))

/-- The new upper covariance at (r, q), over its operands. -/
theorem covUAt (v9 : FVec Ideal S4096x32 .bf16) (v29 : FVec Ideal S32x32 .bf16) (v36 v39 : FVec Ideal S4096x32 .f32)
    (x5 : Vec Ideal S4096x64 .f32) (x8 x9 : Vec Ideal S1x64 .f32) (r : Fin 4096) (q : Fin 32) :
    k0_pay24 v9 v29 v36 v39 x5 x8 x9 (ix2 r q)
      = (((v36 (ix2 r q) + v39 (ix2 r q)) + ∑ k : Fin 32, v9 (ix2 r k) * v29 (ix2 k q))
          + (x8 (ix2 (0 : Fin 1) (lo q)) * x8 (ix2 (0 : Fin 1) (lo q))) * x5 (ix2 r (lo q))) + noise x9 (lo q) := by
  unfold k0_pay24
  show ((_ + _) + _) + _ = _
  exact congrArg₂ (· + ·) (congrArg₂ (· + ·) (congrArg ((v36 (ix2 r q) + v39 (ix2 r q)) + ·) (mm v9 v29 r q)) (scaledCovLo x5 x8 r q)) (noiseLo x9 r q)

/-- The new lower covariance at (r, q), over its operands. -/
theorem covLAt (v8 v9 v10 : FVec Ideal S4096x32 .bf16) (v30 v31 v32 : FVec Ideal S32x32 .bf16)
    (x5 : Vec Ideal S4096x64 .f32) (x8 x9 : Vec Ideal S1x64 .f32) (r : Fin 4096) (q : Fin 32) :
    k0_pay25 v8 v9 v10 v30 v31 v32 x5 x8 x9 (ix2 r q)
      = ((((∑ k : Fin 32, v8 (ix2 r k) * v30 (ix2 k q)) + two * ∑ k : Fin 32, v10 (ix2 r k) * v31 (ix2 k q))
            + ∑ k : Fin 32, v9 (ix2 r k) * v32 (ix2 k q))
          + (x8 (ix2 (0 : Fin 1) (hi q)) * x8 (ix2 (0 : Fin 1) (hi q))) * x5 (ix2 r (hi q))) + noise x9 (hi q) := by
  unfold k0_pay25
  show (((_ + _ * _) + _) + _) + _ = _
  exact congrArg₂ (· + ·) (congrArg₂ (· + ·) (congrArg₂ (· + ·) (congrArg₂ (· + ·) (mm v8 v30 r q) (congrArg (two * ·) (mm v10 v31 r q))) (mm v9 v32 r q)) (scaledCovHi x5 x8 r q)) (noiseHi x9 r q)

/-- The new side covariance at (r, q), over its operands. -/
theorem covSAt (v8 v9 v10 : FVec Ideal S4096x32 .bf16) (v33 v34 v35 : FVec Ideal S32x32 .bf16) (r : Fin 4096) (q : Fin 32) :
    k0_pay20 v8 v9 v10 v33 v34 v35 (ix2 r q)
      = ((∑ k : Fin 32, v8 (ix2 r k) * v33 (ix2 k q)) + ∑ k : Fin 32, v10 (ix2 r k) * v34 (ix2 k q))
          + ∑ k : Fin 32, v9 (ix2 r k) * v35 (ix2 k q) := by
  unfold k0_pay20
  show (_ + _) + _ = _
  exact congrArg₂ (· + ·) (congrArg₂ (· + ·) (mm v8 v33 r q) (mm v10 v34 r q)) (mm v9 v35 r q)

/-! ## The 32-row pieces of the covariance-weight slab, and the casts -/

theorem slab11 (x7 : Vec Ideal S288x32 .f32) (k q : Fin 32) : k0_pay11 x7 (ix2 k q) = x7 (ix2 ⟨64 + k.val, by omega⟩ q) := by
  unfold k0_pay11 k0_pay8
  exact slabSlice x7 64 (by omega) _ _ _ k q
theorem slab12 (x7 : Vec Ideal S288x32 .f32) (k q : Fin 32) : k0_pay12 x7 (ix2 k q) = x7 (ix2 ⟨96 + k.val, by omega⟩ q) := by
  unfold k0_pay12 k0_pay8
  exact slabSlice x7 96 (by omega) _ _ _ k q
theorem slab13 (x7 : Vec Ideal S288x32 .f32) (k q : Fin 32) : k0_pay13 x7 (ix2 k q) = x7 (ix2 ⟨128 + k.val, by omega⟩ q) := by
  unfold k0_pay13 k0_pay8
  exact slabSlice x7 128 (by omega) _ _ _ k q
theorem slab14 (x7 : Vec Ideal S288x32 .f32) (k q : Fin 32) : k0_pay14 x7 (ix2 k q) = x7 (ix2 ⟨160 + k.val, by omega⟩ q) := by
  unfold k0_pay14 k0_pay8
  exact slabSlice x7 160 (by omega) _ _ _ k q
theorem slab15 (x7 : Vec Ideal S288x32 .f32) (k q : Fin 32) : k0_pay15 x7 (ix2 k q) = x7 (ix2 ⟨192 + k.val, by omega⟩ q) := by
  unfold k0_pay15 k0_pay8
  exact slabSlice x7 192 (by omega) _ _ _ k q
theorem slab16 (x7 : Vec Ideal S288x32 .f32) (k q : Fin 32) : k0_pay16 x7 (ix2 k q) = x7 (ix2 ⟨224 + k.val, by omega⟩ q) := by
  unfold k0_pay16 k0_pay8
  exact slabSlice x7 224 (by omega) _ _ _ k q
theorem slab17 (x7 : Vec Ideal S288x32 .f32) (k q : Fin 32) : k0_pay17 x7 (ix2 k q) = x7 (ix2 ⟨256 + k.val, by omega⟩ q) := by
  unfold k0_pay17 k0_pay8
  exact slabSlice x7 256 (by omega) _ _ _ k q

theorem cast4 (x1 : Vec Ideal S4096x32 .f32) (i : S4096x32.Idx) : k0_pay4 x1 i = x1 i := rfl
theorem cast5 (x2 : Vec Ideal S4096x32 .f32) (i : S4096x32.Idx) : k0_pay5 x2 i = x2 i := rfl
theorem cast6 (x3 : Vec Ideal S4096x32 .f32) (i : S4096x32.Idx) : k0_pay6 x3 i = x3 i := rfl

/-- The first product of the upper covariance: cu against rows 0..31 of the slab. -/
theorem prodCu0 (x1 : Vec Ideal S4096x32 .f32) (x7 : Vec Ideal S288x32 .f32) (r : Fin 4096) (q : Fin 32) :
    k0_pay18 x1 x7 (ix2 r q) = ∑ k : Fin 32, x1 (ix2 r k) * x7 (ix2 ⟨0 + k.val, by omega⟩ q) := by
  unfold k0_pay18 k0_pay8
  exact mmSlab (k0_pay4 x1) x7 0 (by omega) _ _ _ r q

/-- Twice the second: cs against rows 32..63. -/
theorem prodCs1 (x3 : Vec Ideal S4096x32 .f32) (x7 : Vec Ideal S288x32 .f32) (r : Fin 4096) (q : Fin 32) :
    k0_pay19 x3 x7 (ix2 r q) = two * ∑ k : Fin 32, x3 (ix2 r k) * x7 (ix2 ⟨32 + k.val, by omega⟩ q) := by
  unfold k0_pay19 k0_pay8
  show _ * _ = _
  exact congrArg₂ (· * ·) rfl (mmSlab (k0_pay6 x3) x7 32 (by omega) _ _ _ r q)

/-! ## What the ten blocks are -/

/-- The six row-blocked inputs are rows base .. base + 4095 of their arrays; the mean-weight slab's four 32-row pieces
    are the four transition blocks transposed; the covariance-weight slab's nine pieces are the nine products (one a
    sum of two products) transposed; the two rows are b and the noise logarithm. -/
structure Holds (base : ℕ) (hb : base + 4096 ≤ 262144)
    (x0 : Vec Ideal S4096x64 .f32) (x1 x2 x3 : Vec Ideal S4096x32 .f32) (x4 x5 : Vec Ideal S4096x64 .f32)
    (x6 : Vec Ideal S128x32 .f32) (x7 : Vec Ideal S288x32 .f32) (x8 x9 : Vec Ideal S1x64 .f32)
    (A0 : FVec Ideal Big64 .f32) (A1 A2 A3 : FVec Ideal Big32 .f32) (A4 A5 : FVec Ideal Big64 .f32)
    (T6 T7 T8 T9 : FVec Ideal Sq .f32) (B LP : FVec Ideal Row64 .f32) : Prop where
  r0 : ∀ (r : Fin 4096) (c : Fin 64), x0 (ix2 r c) = A0 (ix2 ⟨base + r.val, by omega⟩ c)
  r1 : ∀ (r : Fin 4096) (k : Fin 32), x1 (ix2 r k) = A1 (ix2 ⟨base + r.val, by omega⟩ k)
  r2 : ∀ (r : Fin 4096) (k : Fin 32), x2 (ix2 r k) = A2 (ix2 ⟨base + r.val, by omega⟩ k)
  r3 : ∀ (r : Fin 4096) (k : Fin 32), x3 (ix2 r k) = A3 (ix2 ⟨base + r.val, by omega⟩ k)
  r4 : ∀ (r : Fin 4096) (c : Fin 64), x4 (ix2 r c) = A4 (ix2 ⟨base + r.val, by omega⟩ c)
  r5 : ∀ (r : Fin 4096) (c : Fin 64), x5 (ix2 r c) = A5 (ix2 ⟨base + r.val, by omega⟩ c)
  m0 : ∀ k q : Fin 32, x6 (ix2 ⟨0 + k.val, by omega⟩ q) = T6 (ix2 q k)
  m1 : ∀ k q : Fin 32, x6 (ix2 ⟨32 + k.val, by omega⟩ q) = T7 (ix2 q k)
  m2 : ∀ k q : Fin 32, x6 (ix2 ⟨64 + k.val, by omega⟩ q) = T8 (ix2 q k)
  m3 : ∀ k q : Fin 32, x6 (ix2 ⟨96 + k.val, by omega⟩ q) = T9 (ix2 q k)
  c0 : ∀ k q : Fin 32, x7 (ix2 ⟨0 + k.val, by omega⟩ q) = T6 (ix2 q k) * T6 (ix2 q k)
  c1 : ∀ k q : Fin 32, x7 (ix2 ⟨32 + k.val, by omega⟩ q) = T6 (ix2 q k) * T7 (ix2 q k)
  c2 : ∀ k q : Fin 32, x7 (ix2 ⟨64 + k.val, by omega⟩ q) = T7 (ix2 q k) * T7 (ix2 q k)
  c3 : ∀ k q : Fin 32, x7 (ix2 ⟨96 + k.val, by omega⟩ q) = T8 (ix2 q k) * T8 (ix2 q k)
  c4 : ∀ k q : Fin 32, x7 (ix2 ⟨128 + k.val, by omega⟩ q) = T8 (ix2 q k) * T9 (ix2 q k)
  c5 : ∀ k q : Fin 32, x7 (ix2 ⟨160 + k.val, by omega⟩ q) = T9 (ix2 q k) * T9 (ix2 q k)
  c6 : ∀ k q : Fin 32, x7 (ix2 ⟨192 + k.val, by omega⟩ q) = T8 (ix2 q k) * T6 (ix2 q k)
  c7 : ∀ k q : Fin 32, x7 (ix2 ⟨224 + k.val, by omega⟩ q) = T9 (ix2 q k) * T6 (ix2 q k) + T8 (ix2 q k) * T7 (ix2 q k)
  c8 : ∀ k q : Fin 32, x7 (ix2 ⟨256 + k.val, by omega⟩ q) = T9 (ix2 q k) * T7 (ix2 q k)
  b : x8 = B
  lp : x9 = LP

/-! ## The stored value, column block by column block -/

/-- The value the body stores, from the ten loaded blocks. -/
def blockVal (x0 : Vec Ideal S4096x64 .f32) (x1 x2 x3 : Vec Ideal S4096x32 .f32) (x4 x5 : Vec Ideal S4096x64 .f32)
    (x6 : Vec Ideal S128x32 .f32) (x7 : Vec Ideal S288x32 .f32) (x8 x9 : Vec Ideal S1x64 .f32) : FVec Ideal S4096x160 .f32 :=
  k0_pay1
    (k0_pay20 (k0_pay4 x1) (k0_pay5 x2) (k0_pay6 x3) (k0_pay15 x7) (k0_pay16 x7) (k0_pay17 x7))
    (k0_pay21 (k0_pay9 x0 x6) (k0_pay10 x0 x6) x4 x8)
    (k0_pay24 (k0_pay5 x2) (k0_pay11 x7) (k0_pay18 x1 x7) (k0_pay19 x3 x7) x5 x8 x9)
    (k0_pay25 (k0_pay4 x1) (k0_pay5 x2) (k0_pay6 x3) (k0_pay12 x7) (k0_pay13 x7) (k0_pay14 x7) x5 x8 x9)

section Blocks

variable {base : ℕ} {hb : base + 4096 ≤ 262144}
  {x0 : Vec Ideal S4096x64 .f32} {x1 x2 x3 : Vec Ideal S4096x32 .f32} {x4 x5 : Vec Ideal S4096x64 .f32}
  {x6 : Vec Ideal S128x32 .f32} {x7 : Vec Ideal S288x32 .f32} {x8 x9 : Vec Ideal S1x64 .f32}
  {A0 : FVec Ideal Big64 .f32} {A1 A2 A3 : FVec Ideal Big32 .f32} {A4 A5 : FVec Ideal Big64 .f32}
  {T6 T7 T8 T9 : FVec Ideal Sq .f32} {B LP : FVec Ideal Row64 .f32}
  (H : Holds base hb x0 x1 x2 x3 x4 x5 x6 x7 x8 x9 A0 A1 A2 A3 A4 A5 T6 T7 T8 T9 B LP) (r : Fin 4096) (q : Fin 32)

include H

/-- Columns 0..31 of the stored block: the upper half of the new mean at row base + r. -/
theorem meanU : blockVal x0 x1 x2 x3 x4 x5 x6 x7 x8 x9 (ix2 r (⟨q.val, by omega⟩ : Fin 160))
    = meanHalf A0 A4 T6 T7 B ⟨base + r.val, by omega⟩ q (lo q) := by
  unfold blockVal k0_pay1
  refine (Cert.ConcatCols.four_first _ _ _ _ _ r (lo q)).trans ?_
  rw [meanAtLo, meanProdU]
  simp only [H.r0, H.r4, H.m0, H.m1, H.b]
  rfl

/-- Columns 32..63: the lower half of the new mean. -/
theorem meanL : blockVal x0 x1 x2 x3 x4 x5 x6 x7 x8 x9 (ix2 r (⟨32 + q.val, by omega⟩ : Fin 160))
    = meanHalf A0 A4 T8 T9 B ⟨base + r.val, by omega⟩ q (hi q) := by
  unfold blockVal k0_pay1
  refine (Cert.ConcatCols.four_first _ _ _ _ _ r (hi q)).trans ?_
  rw [meanAtHi, meanProdL]
  simp only [H.r0, H.r4, H.m2, H.m3, H.b]
  rfl

/-- Columns 64..95: the new upper covariance. -/
theorem covU : blockVal x0 x1 x2 x3 x4 x5 x6 x7 x8 x9 (ix2 r (⟨64 + q.val, by omega⟩ : Fin 160))
    = covDiag A1 A2 A3 A5 T6 T7 B LP ⟨base + r.val, by omega⟩ q (lo q) := by
  unfold blockVal k0_pay1
  refine (Cert.ConcatCols.four_second _ _ _ _ _ r q).trans ?_
  rw [covUAt, prodCu0, prodCs1]
  simp only [cast5, slab11, H.r1, H.r2, H.r3, H.r5, H.c0, H.c1, H.c2, H.b, H.lp]
  rfl

/-- Columns 96..127: the new lower covariance. -/
theorem covL : blockVal x0 x1 x2 x3 x4 x5 x6 x7 x8 x9 (ix2 r (⟨96 + q.val, by omega⟩ : Fin 160))
    = covDiag A1 A2 A3 A5 T8 T9 B LP ⟨base + r.val, by omega⟩ q (hi q) := by
  unfold blockVal k0_pay1
  refine (Cert.ConcatCols.four_third _ _ _ _ _ r q).trans ?_
  rw [covLAt]
  simp only [cast4, cast5, cast6, slab12, slab13, slab14, H.r1, H.r2, H.r3, H.r5, H.c3, H.c4, H.c5, H.b, H.lp]
  rfl

/-- Columns 128..159: the new side covariance. -/
theorem covS : blockVal x0 x1 x2 x3 x4 x5 x6 x7 x8 x9 (ix2 r (⟨128 + q.val, by omega⟩ : Fin 160))
    = covSide A1 A2 A3 T6 T7 T8 T9 ⟨base + r.val, by omega⟩ q := by
  unfold blockVal k0_pay1
  refine (Cert.ConcatCols.four_fourth _ _ _ _ _ r q).trans ?_
  rw [covSAt]
  simp only [cast4, cast5, cast6, slab15, slab16, slab17, H.r1, H.r2, H.r3, H.c6, H.c7, H.c8]
  rfl

end Blocks

end Cert.KernelIdeal.BlockValue

end
-- ==== Proof.RefAt.lean ====
/-
  The reference's result at an entry.

  Its last operation lays the new mean (64 columns), the new upper, lower and side covariance (32 columns each) side
  by side; the mean itself is two 32-column halves side by side plus b * pm1. Reading the joins at a column and then
  each operation at an entry (a matrix product against a transposed 32 x 32 matrix as the sum over its 32 columns)
  gives the five column blocks of the specification.
-/
import proofs.«102485_j84937273246072_1_alg».proof.Proof.Gen.ReferenceIdeal.Read
import proofs.«102485_j84937273246072_1_alg».proof.Proof.Spec
import proofs.«102485_j84937273246072_1_alg».proof.Proof.LibConcatCols

noncomputable section

namespace Cert.ReferenceIdeal.RefAt

open Idealize.ShloMosaic Idealize.ShloMosaic.ValueIdx
open Cert.ReferenceIdeal Cert.ReferenceIdeal.Read Cert.Predict

/-- Two indices of a two-axis shape with equal coordinates are equal. -/
theorem idx2_ext {n0 n1 : ℕ} (u v : (⟨2, ![n0, n1]⟩ : Shape).Idx) (h0 : (u 0).val = (v 0).val) (h1 : (u 1).val = (v 1).val) : u = v :=
  funext fun a => Fin.ext (by match a with | ⟨0, _⟩ => exact h0 | ⟨1, _⟩ => exact h1)

/-- Closes an equation between two spellings of one index: bare, under an array, or as a function of the summation
    variable. -/
macro "ixc" : tactic => `(tactic| first
  | rfl
  | (apply idx2_ext <;> rfl)
  | (apply congrArg; apply idx2_ext <;> rfl)
  | (funext _; apply idx2_ext <;> rfl))

variable (A0 : FVec Ideal S262144x64 .f32) (A1 A2 A3 : FVec Ideal S262144x32 .f32) (A4 A5 : FVec Ideal S262144x64 .f32)
  (T6 T7 T8 T9 : FVec Ideal S32x32 .f32) (B LP : FVec Ideal S1x64 .f32) (p : Fin 262144) (q : Fin 32)

/-- Every operation of the reference read at an entry. -/
macro "ref_at_entry" : tactic => `(tactic| (
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_cst_apply, val_main_cst_0_apply, val_main_cst_1_apply, val_main_cst_2_apply]
  simp only [Ideal.addf_def, Ideal.mulf_def, Ideal.ofBits_def, Ideal.hostUnary_exp_def, meanHalf, covDiag, covSide, dotLo, dotHi,
    dotProd, dotProd2, noise, two]))

/-- Columns 0..31: the upper half of the new mean. -/
theorem meanU : val_main_v74 (F := Ideal) A0 A1 A2 A3 A4 A5 T6 T7 T8 T9 B LP (ix2 p (⟨q.val, by omega⟩ : Fin 160))
    = meanHalf A0 A4 T6 T7 B p q (lo q) := by
  unfold val_main_v74
  refine (Cert.ConcatCols.four_first _ _ _ _ _ p (lo q)).trans ?_
  rw [val_main_v54_apply]
  unfold val_main_v51
  rw [Cert.ConcatCols.pair_left]
  ref_at_entry
  congr! 6 <;> ixc

/-- Columns 32..63: the lower half of the new mean. -/
theorem meanL : val_main_v74 (F := Ideal) A0 A1 A2 A3 A4 A5 T6 T7 T8 T9 B LP (ix2 p (⟨32 + q.val, by omega⟩ : Fin 160))
    = meanHalf A0 A4 T8 T9 B p q (hi q) := by
  unfold val_main_v74
  refine (Cert.ConcatCols.four_first _ _ _ _ _ p (hi q)).trans ?_
  rw [val_main_v54_apply]
  unfold val_main_v51
  rw [Cert.ConcatCols.pair_right]
  ref_at_entry
  congr! 6 <;> ixc

/-- Columns 64..95: the new upper covariance. -/
theorem covU : val_main_v74 (F := Ideal) A0 A1 A2 A3 A4 A5 T6 T7 T8 T9 B LP (ix2 p (⟨64 + q.val, by omega⟩ : Fin 160))
    = covDiag A1 A2 A3 A5 T6 T7 B LP p q (lo q) := by
  unfold val_main_v74
  refine (Cert.ConcatCols.four_second _ _ _ _ _ p q).trans ?_
  ref_at_entry
  congr! 8 <;> ixc

/-- Columns 96..127: the new lower covariance. -/
theorem covL : val_main_v74 (F := Ideal) A0 A1 A2 A3 A4 A5 T6 T7 T8 T9 B LP (ix2 p (⟨96 + q.val, by omega⟩ : Fin 160))
    = covDiag A1 A2 A3 A5 T8 T9 B LP p q (hi q) := by
  unfold val_main_v74
  refine (Cert.ConcatCols.four_third _ _ _ _ _ p q).trans ?_
  ref_at_entry
  congr! 8 <;> ixc

/-- Columns 128..159: the new side covariance. -/
theorem covS : val_main_v74 (F := Ideal) A0 A1 A2 A3 A4 A5 T6 T7 T8 T9 B LP (ix2 p (⟨128 + q.val, by omega⟩ : Fin 160))
    = covSide A1 A2 A3 T6 T7 T8 T9 p q := by
  unfold val_main_v74
  refine (Cert.ConcatCols.four_fourth _ _ _ _ _ p q).trans ?_
  ref_at_entry
  congr! 8 <;> ixc

end Cert.ReferenceIdeal.RefAt

end
-- ==== Proof.LibStackRows.lean ====
/-
  Square 32 x 32 pieces stacked along the row axis, read at an entry.

  Four pieces make a 128 x 32 array, nine a 288 x 32 array; entry (32 a + k, q) of the stack is entry (k, q) of
  piece a.
-/
import Idealize.ShloMosaic.Lib.Pipeline.Value
import Idealize.ShloMosaic.Lib.ValueIdx

noncomputable section

namespace Cert.StackRows

open Idealize.ShloMosaic Idealize.ShloMosaic.ValueIdx

variable {α : Type}

namespace Four

variable (p0 p1 p2 p3 : (⟨2, ![32, 32]⟩ : Shape).Idx → α)
  (h : Shape.Concatenates [(⟨2, ![32, 32]⟩ : Shape), ⟨2, ![32, 32]⟩, ⟨2, ![32, 32]⟩, ⟨2, ![32, 32]⟩] ⟨2, ![128, 32]⟩ 0) (k q : Fin 32)

/-- Rows 0 .. 31 are piece 0. -/
theorem piece0 : concatenate (⟨2, ![128, 32]⟩ : Shape) 0 [⟨_, p0⟩, ⟨_, p1⟩, ⟨_, p2⟩, ⟨_, p3⟩] h (ix2 (⟨0 + k.val, by omega⟩ : Fin 128) q) = p0 (ix2 k q) :=
  concatenate_apply_piece 0 [⟨_, p0⟩, ⟨_, p1⟩, ⟨_, p2⟩, ⟨_, p3⟩] h (ix2 (⟨0 + k.val, by omega⟩ : Fin 128) q) 0 (by simp) _ p0 rfl rfl 0 (by simp) (ix2 k q)
    (fun b hb => by match b, hb with | ⟨0, _⟩, hb => exact absurd rfl hb | ⟨1, _⟩, _ => rfl)
    (by show 0 + k.val = 0 + k.val; rfl)

/-- Rows 32 .. 63 are piece 1. -/
theorem piece1 : concatenate (⟨2, ![128, 32]⟩ : Shape) 0 [⟨_, p0⟩, ⟨_, p1⟩, ⟨_, p2⟩, ⟨_, p3⟩] h (ix2 (⟨32 + k.val, by omega⟩ : Fin 128) q) = p1 (ix2 k q) :=
  concatenate_apply_piece 0 [⟨_, p0⟩, ⟨_, p1⟩, ⟨_, p2⟩, ⟨_, p3⟩] h (ix2 (⟨32 + k.val, by omega⟩ : Fin 128) q) 1 (by simp) _ p1 rfl rfl 32 (by simp) (ix2 k q)
    (fun b hb => by match b, hb with | ⟨0, _⟩, hb => exact absurd rfl hb | ⟨1, _⟩, _ => rfl)
    (by show 32 + k.val = 32 + k.val; rfl)

/-- Rows 64 .. 95 are piece 2. -/
theorem piece2 : concatenate (⟨2, ![128, 32]⟩ : Shape) 0 [⟨_, p0⟩, ⟨_, p1⟩, ⟨_, p2⟩, ⟨_, p3⟩] h (ix2 (⟨64 + k.val, by omega⟩ : Fin 128) q) = p2 (ix2 k q) :=
  concatenate_apply_piece 0 [⟨_, p0⟩, ⟨_, p1⟩, ⟨_, p2⟩, ⟨_, p3⟩] h (ix2 (⟨64 + k.val, by omega⟩ : Fin 128) q) 2 (by simp) _ p2 rfl rfl 64 (by simp) (ix2 k q)
    (fun b hb => by match b, hb with | ⟨0, _⟩, hb => exact absurd rfl hb | ⟨1, _⟩, _ => rfl)
    (by show 64 + k.val = 64 + k.val; rfl)

/-- Rows 96 .. 127 are piece 3. -/
theorem piece3 : concatenate (⟨2, ![128, 32]⟩ : Shape) 0 [⟨_, p0⟩, ⟨_, p1⟩, ⟨_, p2⟩, ⟨_, p3⟩] h (ix2 (⟨96 + k.val, by omega⟩ : Fin 128) q) = p3 (ix2 k q) :=
  concatenate_apply_piece 0 [⟨_, p0⟩, ⟨_, p1⟩, ⟨_, p2⟩, ⟨_, p3⟩] h (ix2 (⟨96 + k.val, by omega⟩ : Fin 128) q) 3 (by simp) _ p3 rfl rfl 96 (by simp) (ix2 k q)
    (fun b hb => by match b, hb with | ⟨0, _⟩, hb => exact absurd rfl hb | ⟨1, _⟩, _ => rfl)
    (by show 96 + k.val = 96 + k.val; rfl)

end Four

namespace Nine

variable (p0 p1 p2 p3 p4 p5 p6 p7 p8 : (⟨2, ![32, 32]⟩ : Shape).Idx → α)
  (h : Shape.Concatenates [(⟨2, ![32, 32]⟩ : Shape), ⟨2, ![32, 32]⟩, ⟨2, ![32, 32]⟩, ⟨2, ![32, 32]⟩, ⟨2, ![32, 32]⟩, ⟨2, ![32, 32]⟩, ⟨2, ![32, 32]⟩, ⟨2, ![32, 32]⟩, ⟨2, ![32, 32]⟩] ⟨2, ![288, 32]⟩ 0) (k q : Fin 32)

/-- Rows 0 .. 31 are piece 0. -/
theorem piece0 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨0 + k.val, by omega⟩ : Fin 288) q) = p0 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨0 + k.val, by omega⟩ : Fin 288) q) 0 (by simp) _ p0 rfl rfl 0 (by simp) (ix2 k q)
    (fun b hb => by match b, hb with | ⟨0, _⟩, hb => exact absurd rfl hb | ⟨1, _⟩, _ => rfl)
    (by show 0 + k.val = 0 + k.val; rfl)

/-- Rows 32 .. 63 are piece 1. -/
theorem piece1 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨32 + k.val, by omega⟩ : Fin 288) q) = p1 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨32 + k.val, by omega⟩ : Fin 288) q) 1 (by simp) _ p1 rfl rfl 32 (by simp) (ix2 k q)
    (fun b hb => by match b, hb with | ⟨0, _⟩, hb => exact absurd rfl hb | ⟨1, _⟩, _ => rfl)
    (by show 32 + k.val = 32 + k.val; rfl)

/-- Rows 64 .. 95 are piece 2. -/
theorem piece2 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨64 + k.val, by omega⟩ : Fin 288) q) = p2 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨64 + k.val, by omega⟩ : Fin 288) q) 2 (by simp) _ p2 rfl rfl 64 (by simp) (ix2 k q)
    (fun b hb => by match b, hb with | ⟨0, _⟩, hb => exact absurd rfl hb | ⟨1, _⟩, _ => rfl)
    (by show 64 + k.val = 64 + k.val; rfl)

/-- Rows 96 .. 127 are piece 3. -/
theorem piece3 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨96 + k.val, by omega⟩ : Fin 288) q) = p3 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨96 + k.val, by omega⟩ : Fin 288) q) 3 (by simp) _ p3 rfl rfl 96 (by simp) (ix2 k q)
    (fun b hb => by match b, hb with | ⟨0, _⟩, hb => exact absurd rfl hb | ⟨1, _⟩, _ => rfl)
    (by show 96 + k.val = 96 + k.val; rfl)

/-- Rows 128 .. 159 are piece 4. -/
theorem piece4 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨128 + k.val, by omega⟩ : Fin 288) q) = p4 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨128 + k.val, by omega⟩ : Fin 288) q) 4 (by simp) _ p4 rfl rfl 128 (by simp) (ix2 k q)
    (fun b hb => by match b, hb with | ⟨0, _⟩, hb => exact absurd rfl hb | ⟨1, _⟩, _ => rfl)
    (by show 128 + k.val = 128 + k.val; rfl)

/-- Rows 160 .. 191 are piece 5. -/
theorem piece5 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨160 + k.val, by omega⟩ : Fin 288) q) = p5 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨160 + k.val, by omega⟩ : Fin 288) q) 5 (by simp) _ p5 rfl rfl 160 (by simp) (ix2 k q)
    (fun b hb => by match b, hb with | ⟨0, _⟩, hb => exact absurd rfl hb | ⟨1, _⟩, _ => rfl)
    (by show 160 + k.val = 160 + k.val; rfl)

/-- Rows 192 .. 223 are piece 6. -/
theorem piece6 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨192 + k.val, by omega⟩ : Fin 288) q) = p6 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨192 + k.val, by omega⟩ : Fin 288) q) 6 (by simp) _ p6 rfl rfl 192 (by simp) (ix2 k q)
    (fun b hb => by match b, hb with | ⟨0, _⟩, hb => exact absurd rfl hb | ⟨1, _⟩, _ => rfl)
    (by show 192 + k.val = 192 + k.val; rfl)

/-- Rows 224 .. 255 are piece 7. -/
theorem piece7 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨224 + k.val, by omega⟩ : Fin 288) q) = p7 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨224 + k.val, by omega⟩ : Fin 288) q) 7 (by simp) _ p7 rfl rfl 224 (by simp) (ix2 k q)
    (fun b hb => by match b, hb with | ⟨0, _⟩, hb => exact absurd rfl hb | ⟨1, _⟩, _ => rfl)
    (by show 224 + k.val = 224 + k.val; rfl)

/-- Rows 256 .. 287 are piece 8. -/
theorem piece8 : concatenate (⟨2, ![288, 32]⟩ : Shape) 0 [⟨_, p0⟩, ⟨_, p1⟩, ⟨_, p2⟩, ⟨_, p3⟩, ⟨_, p4⟩, ⟨_, p5⟩, ⟨_, p6⟩, ⟨_, p7⟩, ⟨_, p8⟩] h (ix2 (⟨256 + k.val, by omega⟩ : Fin 288) q) = p8 (ix2 k q) :=
  concatenate_apply_piece 0 [⟨_, p0⟩, ⟨_, p1⟩, ⟨_, p2⟩, ⟨_, p3⟩, ⟨_, p4⟩, ⟨_, p5⟩, ⟨_, p6⟩, ⟨_, p7⟩, ⟨_, p8⟩] h (ix2 (⟨256 + k.val, by omega⟩ : Fin 288) q) 8 (by simp) _ p8 rfl rfl 256 (by simp) (ix2 k q)
    (fun b hb => by match b, hb with | ⟨0, _⟩, hb => exact absurd rfl hb | ⟨1, _⟩, _ => rfl)
    (by show 256 + k.val = 256 + k.val; rfl)

end Nine

end Cert.StackRows

end
-- ==== Proof.KIValue.lean ====
/-
  The kernel's result array, at the ideal instance.

  The two weight slabs are what @main's host operations make of the four transition blocks: four transposes stacked,
  and nine transposed entrywise products (one a sum of two) stacked. At grid point t the six row-blocked windows hold
  rows 4096 t .. 4096 t + 4095 of their arrays and the other four hold their whole arrays, so the block the body
  stores is, entry by entry, the reference's result function of the launch arguments at those rows; the 64 points'
  blocks tile the 262144 rows, so after the run the result array is that function.
-/
import proofs.«102485_j84937273246072_1_alg».proof.Proof.KIFrame
import proofs.«102485_j84937273246072_1_alg».proof.Proof.BlockValue
import proofs.«102485_j84937273246072_1_alg».proof.Proof.RefAt
import proofs.«102485_j84937273246072_1_alg».proof.Proof.LibStackRows
import Idealize.ShloMosaic.Lib.StableHlo.Run
import Idealize.ShloMosaic.Lib.Pipeline.Value
import Idealize.ShloMosaic.Lib.ValueLayout

set_option maxRecDepth 16384

noncomputable section

namespace Cert.KernelIdeal.Final

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen Cert.KernelIdeal.Frm Cert.Predict
open Cert.ReferenceIdeal.RefAt (idx2_ext)

variable (m : (ℓ : Loc nD τ sig) → Buf (Elt Ideal) ℓ) (ρ : Dev nD → PrngReg)

/-! ## The host-made slabs -/

/-- The four 32 x 32 blocks of the transition matrix, as launched on core `c`. -/
abbrev t11 (c : Dev nD) : FVec Ideal S32x32 .f32 := (m ((c : Thread nD τ).loc main_arg6))
abbrev t12 (c : Dev nD) : FVec Ideal S32x32 .f32 := (m ((c : Thread nD τ).loc main_arg7))
abbrev t21 (c : Dev nD) : FVec Ideal S32x32 .f32 := (m ((c : Thread nD τ).loc main_arg8))
abbrev t22 (c : Dev nD) : FVec Ideal S32x32 .f32 := (m ((c : Thread nD τ).loc main_arg9))

/-- A nine-operand host operation's result, each operand's contents at its own reference. -/
theorem nary9_result {τ : Topo} {sig : RefSig} {Val : EltTy → Type} {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (StableHlo.nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [StableHlo.nary_result]; congr 1; funext k; fin_cases k <;> rfl

/-- The same statement in the form used as a simplification rule. -/
theorem nary9_result' {τ : Topo} {sig : RefSig} {Val : EltTy → Type} {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (StableHlo.nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) :=
  nary9_result f hxs hy F

/-- The mean-weight slab: the four transition blocks transposed and stacked. -/
theorem V_wmean (c : Dev nD) : (V m c main_v4 : S128x32.Idx → Elt Ideal .f32) =
    concatenate S128x32 0 [⟨S32x32, transpose S32x32 [1, 0] (t11 m c) transposes_S32x32_S32x32_1_0⟩, ⟨S32x32, transpose S32x32 [1, 0] (t12 m c) transposes_S32x32_S32x32_1_0⟩, ⟨S32x32, transpose S32x32 [1, 0] (t21 m c) transposes_S32x32_S32x32_1_0⟩, ⟨S32x32, transpose S32x32 [1, 0] (t22 m c) transposes_S32x32_S32x32_1_0⟩]
      concatenates_S32x32_S32x32_S32x32_S32x32_S128x32_d0 := by
  dsimp only [V, hostOps0]; after_results; rfl

set_option maxHeartbeats 1000000 in
/-- The covariance-weight slab: nine transposed entrywise products (the eighth a sum of two) stacked. -/
theorem V_wcov (c : Dev nD) : (V m c main_v25 : S288x32.Idx → Elt Ideal .f32) =
    concatenate S288x32 0 [⟨S32x32, transpose S32x32 [1, 0] (mulf (t11 m c) (t11 m c)) transposes_S32x32_S32x32_1_0⟩, ⟨S32x32, transpose S32x32 [1, 0] (mulf (t11 m c) (t12 m c)) transposes_S32x32_S32x32_1_0⟩, ⟨S32x32, transpose S32x32 [1, 0] (mulf (t12 m c) (t12 m c)) transposes_S32x32_S32x32_1_0⟩,
        ⟨S32x32, transpose S32x32 [1, 0] (mulf (t21 m c) (t21 m c)) transposes_S32x32_S32x32_1_0⟩, ⟨S32x32, transpose S32x32 [1, 0] (mulf (t21 m c) (t22 m c)) transposes_S32x32_S32x32_1_0⟩, ⟨S32x32, transpose S32x32 [1, 0] (mulf (t22 m c) (t22 m c)) transposes_S32x32_S32x32_1_0⟩,
        ⟨S32x32, transpose S32x32 [1, 0] (mulf (t21 m c) (t11 m c)) transposes_S32x32_S32x32_1_0⟩, ⟨S32x32, transpose S32x32 [1, 0] (addf (mulf (t22 m c) (t11 m c)) (mulf (t21 m c) (t12 m c))) transposes_S32x32_S32x32_1_0⟩, ⟨S32x32, transpose S32x32 [1, 0] (mulf (t22 m c) (t12 m c)) transposes_S32x32_S32x32_1_0⟩]
      concatenates_S32x32_S32x32_S32x32_S32x32_S32x32_S32x32_S32x32_S32x32_S32x32_S288x32_d0 := by
  dsimp only [V, hostOps0]
  simp (disch := decide) only [after_cons, after_nil, unary_result', binary_result', nary9_result', nary4_result',
    unary_result_ne', binary_result_ne', nary_result_ne']
  rfl

theorem wmean0 (c : Dev nD) (k q : Fin 32) :
    V m c main_v4 (ix2 (⟨0 + k.val, by omega⟩ : Fin 128) q) = t11 m c (ix2 q k) := by
  rw [V_wmean]
  exact (Cert.StackRows.Four.piece0 _ _ _ _ _ k q).trans (transpose_ix2_apply _ _ k q)
theorem wmean1 (c : Dev nD) (k q : Fin 32) :
    V m c main_v4 (ix2 (⟨32 + k.val, by omega⟩ : Fin 128) q) = t12 m c (ix2 q k) := by
  rw [V_wmean]
  exact (Cert.StackRows.Four.piece1 _ _ _ _ _ k q).trans (transpose_ix2_apply _ _ k q)
theorem wmean2 (c : Dev nD) (k q : Fin 32) :
    V m c main_v4 (ix2 (⟨64 + k.val, by omega⟩ : Fin 128) q) = t21 m c (ix2 q k) := by
  rw [V_wmean]
  exact (Cert.StackRows.Four.piece2 _ _ _ _ _ k q).trans (transpose_ix2_apply _ _ k q)
theorem wmean3 (c : Dev nD) (k q : Fin 32) :
    V m c main_v4 (ix2 (⟨96 + k.val, by omega⟩ : Fin 128) q) = t22 m c (ix2 q k) := by
  rw [V_wmean]
  exact (Cert.StackRows.Four.piece3 _ _ _ _ _ k q).trans (transpose_ix2_apply _ _ k q)

theorem wcov0 (c : Dev nD) (k q : Fin 32) :
    V m c main_v25 (ix2 (⟨0 + k.val, by omega⟩ : Fin 288) q) = t11 m c (ix2 q k) * t11 m c (ix2 q k) := by
  rw [V_wcov]
  exact (Cert.StackRows.Nine.piece0 _ _ _ _ _ _ _ _ _ _ k q).trans (transpose_ix2_apply _ _ k q)
theorem wcov1 (c : Dev nD) (k q : Fin 32) :
    V m c main_v25 (ix2 (⟨32 + k.val, by omega⟩ : Fin 288) q) = t11 m c (ix2 q k) * t12 m c (ix2 q k) := by
  rw [V_wcov]
  exact (Cert.StackRows.Nine.piece1 _ _ _ _ _ _ _ _ _ _ k q).trans (transpose_ix2_apply _ _ k q)
theorem wcov2 (c : Dev nD) (k q : Fin 32) :
    V m c main_v25 (ix2 (⟨64 + k.val, by omega⟩ : Fin 288) q) = t12 m c (ix2 q k) * t12 m c (ix2 q k) := by
  rw [V_wcov]
  exact (Cert.StackRows.Nine.piece2 _ _ _ _ _ _ _ _ _ _ k q).trans (transpose_ix2_apply _ _ k q)
theorem wcov3 (c : Dev nD) (k q : Fin 32) :
    V m c main_v25 (ix2 (⟨96 + k.val, by omega⟩ : Fin 288) q) = t21 m c (ix2 q k) * t21 m c (ix2 q k) := by
  rw [V_wcov]
  exact (Cert.StackRows.Nine.piece3 _ _ _ _ _ _ _ _ _ _ k q).trans (transpose_ix2_apply _ _ k q)
theorem wcov4 (c : Dev nD) (k q : Fin 32) :
    V m c main_v25 (ix2 (⟨128 + k.val, by omega⟩ : Fin 288) q) = t21 m c (ix2 q k) * t22 m c (ix2 q k) := by
  rw [V_wcov]
  exact (Cert.StackRows.Nine.piece4 _ _ _ _ _ _ _ _ _ _ k q).trans (transpose_ix2_apply _ _ k q)
theorem wcov5 (c : Dev nD) (k q : Fin 32) :
    V m c main_v25 (ix2 (⟨160 + k.val, by omega⟩ : Fin 288) q) = t22 m c (ix2 q k) * t22 m c (ix2 q k) := by
  rw [V_wcov]
  exact (Cert.StackRows.Nine.piece5 _ _ _ _ _ _ _ _ _ _ k q).trans (transpose_ix2_apply _ _ k q)
theorem wcov6 (c : Dev nD) (k q : Fin 32) :
    V m c main_v25 (ix2 (⟨192 + k.val, by omega⟩ : Fin 288) q) = t21 m c (ix2 q k) * t11 m c (ix2 q k) := by
  rw [V_wcov]
  exact (Cert.StackRows.Nine.piece6 _ _ _ _ _ _ _ _ _ _ k q).trans (transpose_ix2_apply _ _ k q)
theorem wcov7 (c : Dev nD) (k q : Fin 32) :
    V m c main_v25 (ix2 (⟨224 + k.val, by omega⟩ : Fin 288) q) = t22 m c (ix2 q k) * t11 m c (ix2 q k) + t21 m c (ix2 q k) * t12 m c (ix2 q k) := by
  rw [V_wcov]
  exact (Cert.StackRows.Nine.piece7 _ _ _ _ _ _ _ _ _ _ k q).trans (transpose_ix2_apply _ _ k q)
theorem wcov8 (c : Dev nD) (k q : Fin 32) :
    V m c main_v25 (ix2 (⟨256 + k.val, by omega⟩ : Fin 288) q) = t22 m c (ix2 q k) * t12 m c (ix2 q k) := by
  rw [V_wcov]
  exact (Cert.StackRows.Nine.piece8 _ _ _ _ _ _ _ _ _ _ k q).trans (transpose_ix2_apply _ _ k q)

/-! ## The windows' index maps, decided over the grid -/

theorem rows0 : ∀ t : Fin cfg0.N, win0_0.index t (0 : Fin 2) = t.val ∧ win0_0.index t (1 : Fin 2) = 0 := (by decide +kernel : ∀ t : Fin grid0.N, _)
theorem rows1 : ∀ t : Fin cfg0.N, win0_1.index t (0 : Fin 2) = t.val ∧ win0_1.index t (1 : Fin 2) = 0 := (by decide +kernel : ∀ t : Fin grid0.N, _)
theorem rows2 : ∀ t : Fin cfg0.N, win0_2.index t (0 : Fin 2) = t.val ∧ win0_2.index t (1 : Fin 2) = 0 := (by decide +kernel : ∀ t : Fin grid0.N, _)
theorem rows3 : ∀ t : Fin cfg0.N, win0_3.index t (0 : Fin 2) = t.val ∧ win0_3.index t (1 : Fin 2) = 0 := (by decide +kernel : ∀ t : Fin grid0.N, _)
theorem rows4 : ∀ t : Fin cfg0.N, win0_4.index t (0 : Fin 2) = t.val ∧ win0_4.index t (1 : Fin 2) = 0 := (by decide +kernel : ∀ t : Fin grid0.N, _)
theorem rows5 : ∀ t : Fin cfg0.N, win0_5.index t (0 : Fin 2) = t.val ∧ win0_5.index t (1 : Fin 2) = 0 := (by decide +kernel : ∀ t : Fin grid0.N, _)
theorem rows10 : ∀ t : Fin cfg0.N, win0_10.index t (0 : Fin 2) = t.val ∧ win0_10.index t (1 : Fin 2) = 0 := (by decide +kernel : ∀ t : Fin grid0.N, _)
theorem whole6 : ∀ t : Fin cfg0.N, win0_6.index t (0 : Fin 2) = 0 ∧ win0_6.index t (1 : Fin 2) = 0 := (by decide +kernel : ∀ t : Fin grid0.N, _)
theorem whole7 : ∀ t : Fin cfg0.N, win0_7.index t (0 : Fin 2) = 0 ∧ win0_7.index t (1 : Fin 2) = 0 := (by decide +kernel : ∀ t : Fin grid0.N, _)
theorem whole8 : ∀ t : Fin cfg0.N, win0_8.index t (0 : Fin 2) = 0 ∧ win0_8.index t (1 : Fin 2) = 0 := (by decide +kernel : ∀ t : Fin grid0.N, _)
theorem whole9 : ∀ t : Fin cfg0.N, win0_9.index t (0 : Fin 2) = 0 ∧ win0_9.index t (1 : Fin 2) = 0 := (by decide +kernel : ∀ t : Fin grid0.N, _)

theorem point_lt (t : Fin cfg0.N) : t.val < 64 := lt_of_lt_of_eq t.isLt N_0

/-! ## What the ten staged blocks are at a point -/

theorem blk0 (c : Dev nD) (t : Fin cfg0.N) (r : Fin 4096) (k : Fin 64) :
    iblk m c 0 t (ix2 r k) = (m ((c : Thread nD τ).loc main_arg0)) (ix2 (⟨t.val * 4096 + r.val, by have := point_lt t; omega⟩ : Fin 262144) k) := by
  show V m c main_arg0 (((cfg0.win 0).blk t).view.emb (ix2 r k)) = _
  rw [V_main_arg0]
  exact congrArg _ (idx2_ext _ _
    (by show win0_0.index t (0 : Fin 2) * 4096 + 1 * r.val = t.val * 4096 + r.val; rw [(rows0 t).1]; omega)
    (by show win0_0.index t (1 : Fin 2) * 64 + 1 * k.val = k.val; rw [(rows0 t).2]; omega))
theorem blk1 (c : Dev nD) (t : Fin cfg0.N) (r : Fin 4096) (k : Fin 32) :
    iblk m c 1 t (ix2 r k) = (m ((c : Thread nD τ).loc main_arg1)) (ix2 (⟨t.val * 4096 + r.val, by have := point_lt t; omega⟩ : Fin 262144) k) := by
  show V m c main_arg1 (((cfg0.win 1).blk t).view.emb (ix2 r k)) = _
  rw [V_main_arg1]
  exact congrArg _ (idx2_ext _ _
    (by show win0_1.index t (0 : Fin 2) * 4096 + 1 * r.val = t.val * 4096 + r.val; rw [(rows1 t).1]; omega)
    (by show win0_1.index t (1 : Fin 2) * 32 + 1 * k.val = k.val; rw [(rows1 t).2]; omega))
theorem blk2 (c : Dev nD) (t : Fin cfg0.N) (r : Fin 4096) (k : Fin 32) :
    iblk m c 2 t (ix2 r k) = (m ((c : Thread nD τ).loc main_arg2)) (ix2 (⟨t.val * 4096 + r.val, by have := point_lt t; omega⟩ : Fin 262144) k) := by
  show V m c main_arg2 (((cfg0.win 2).blk t).view.emb (ix2 r k)) = _
  rw [V_main_arg2]
  exact congrArg _ (idx2_ext _ _
    (by show win0_2.index t (0 : Fin 2) * 4096 + 1 * r.val = t.val * 4096 + r.val; rw [(rows2 t).1]; omega)
    (by show win0_2.index t (1 : Fin 2) * 32 + 1 * k.val = k.val; rw [(rows2 t).2]; omega))
theorem blk3 (c : Dev nD) (t : Fin cfg0.N) (r : Fin 4096) (k : Fin 32) :
    iblk m c 3 t (ix2 r k) = (m ((c : Thread nD τ).loc main_arg3)) (ix2 (⟨t.val * 4096 + r.val, by have := point_lt t; omega⟩ : Fin 262144) k) := by
  show V m c main_arg3 (((cfg0.win 3).blk t).view.emb (ix2 r k)) = _
  rw [V_main_arg3]
  exact congrArg _ (idx2_ext _ _
    (by show win0_3.index t (0 : Fin 2) * 4096 + 1 * r.val = t.val * 4096 + r.val; rw [(rows3 t).1]; omega)
    (by show win0_3.index t (1 : Fin 2) * 32 + 1 * k.val = k.val; rw [(rows3 t).2]; omega))
theorem blk4 (c : Dev nD) (t : Fin cfg0.N) (r : Fin 4096) (k : Fin 64) :
    iblk m c 4 t (ix2 r k) = (m ((c : Thread nD τ).loc main_arg4)) (ix2 (⟨t.val * 4096 + r.val, by have := point_lt t; omega⟩ : Fin 262144) k) := by
  show V m c main_arg4 (((cfg0.win 4).blk t).view.emb (ix2 r k)) = _
  rw [V_main_arg4]
  exact congrArg _ (idx2_ext _ _
    (by show win0_4.index t (0 : Fin 2) * 4096 + 1 * r.val = t.val * 4096 + r.val; rw [(rows4 t).1]; omega)
    (by show win0_4.index t (1 : Fin 2) * 64 + 1 * k.val = k.val; rw [(rows4 t).2]; omega))
theorem blk5 (c : Dev nD) (t : Fin cfg0.N) (r : Fin 4096) (k : Fin 64) :
    iblk m c 5 t (ix2 r k) = (m ((c : Thread nD τ).loc main_arg5)) (ix2 (⟨t.val * 4096 + r.val, by have := point_lt t; omega⟩ : Fin 262144) k) := by
  show V m c main_arg5 (((cfg0.win 5).blk t).view.emb (ix2 r k)) = _
  rw [V_main_arg5]
  exact congrArg _ (idx2_ext _ _
    (by show win0_5.index t (0 : Fin 2) * 4096 + 1 * r.val = t.val * 4096 + r.val; rw [(rows5 t).1]; omega)
    (by show win0_5.index t (1 : Fin 2) * 64 + 1 * k.val = k.val; rw [(rows5 t).2]; omega))

theorem slab6_0 (c : Dev nD) (t : Fin cfg0.N) (k q : Fin 32) :
    iblk m c 6 t (ix2 (⟨0 + k.val, by omega⟩ : Fin 128) q) = t11 m c (ix2 q k) := by
  show V m c main_v4 (((cfg0.win 6).blk t).view.emb (ix2 (⟨0 + k.val, by omega⟩ : Fin 128) q)) = _
  have e : ((cfg0.win 6).blk t).view.emb (ix2 (⟨0 + k.val, by omega⟩ : Fin 128) q) = ix2 (⟨0 + k.val, by omega⟩ : Fin 128) q :=
    idx2_ext _ _ (by show win0_6.index t (0 : Fin 2) * 128 + 1 * (0 + k.val) = 0 + k.val; rw [(whole6 t).1]; omega)
      (by show win0_6.index t (1 : Fin 2) * 32 + 1 * q.val = q.val; rw [(whole6 t).2]; omega)
  rw [e]
  exact wmean0 m c k q
theorem slab6_1 (c : Dev nD) (t : Fin cfg0.N) (k q : Fin 32) :
    iblk m c 6 t (ix2 (⟨32 + k.val, by omega⟩ : Fin 128) q) = t12 m c (ix2 q k) := by
  show V m c main_v4 (((cfg0.win 6).blk t).view.emb (ix2 (⟨32 + k.val, by omega⟩ : Fin 128) q)) = _
  have e : ((cfg0.win 6).blk t).view.emb (ix2 (⟨32 + k.val, by omega⟩ : Fin 128) q) = ix2 (⟨32 + k.val, by omega⟩ : Fin 128) q :=
    idx2_ext _ _ (by show win0_6.index t (0 : Fin 2) * 128 + 1 * (32 + k.val) = 32 + k.val; rw [(whole6 t).1]; omega)
      (by show win0_6.index t (1 : Fin 2) * 32 + 1 * q.val = q.val; rw [(whole6 t).2]; omega)
  rw [e]
  exact wmean1 m c k q
theorem slab6_2 (c : Dev nD) (t : Fin cfg0.N) (k q : Fin 32) :
    iblk m c 6 t (ix2 (⟨64 + k.val, by omega⟩ : Fin 128) q) = t21 m c (ix2 q k) := by
  show V m c main_v4 (((cfg0.win 6).blk t).view.emb (ix2 (⟨64 + k.val, by omega⟩ : Fin 128) q)) = _
  have e : ((cfg0.win 6).blk t).view.emb (ix2 (⟨64 + k.val, by omega⟩ : Fin 128) q) = ix2 (⟨64 + k.val, by omega⟩ : Fin 128) q :=
    idx2_ext _ _ (by show win0_6.index t (0 : Fin 2) * 128 + 1 * (64 + k.val) = 64 + k.val; rw [(whole6 t).1]; omega)
      (by show win0_6.index t (1 : Fin 2) * 32 + 1 * q.val = q.val; rw [(whole6 t).2]; omega)
  rw [e]
  exact wmean2 m c k q
theorem slab6_3 (c : Dev nD) (t : Fin cfg0.N) (k q : Fin 32) :
    iblk m c 6 t (ix2 (⟨96 + k.val, by omega⟩ : Fin 128) q) = t22 m c (ix2 q k) := by
  show V m c main_v4 (((cfg0.win 6).blk t).view.emb (ix2 (⟨96 + k.val, by omega⟩ : Fin 128) q)) = _
  have e : ((cfg0.win 6).blk t).view.emb (ix2 (⟨96 + k.val, by omega⟩ : Fin 128) q) = ix2 (⟨96 + k.val, by omega⟩ : Fin 128) q :=
    idx2_ext _ _ (by show win0_6.index t (0 : Fin 2) * 128 + 1 * (96 + k.val) = 96 + k.val; rw [(whole6 t).1]; omega)
      (by show win0_6.index t (1 : Fin 2) * 32 + 1 * q.val = q.val; rw [(whole6 t).2]; omega)
  rw [e]
  exact wmean3 m c k q

theorem slab7_0 (c : Dev nD) (t : Fin cfg0.N) (k q : Fin 32) :
    iblk m c 7 t (ix2 (⟨0 + k.val, by omega⟩ : Fin 288) q) = t11 m c (ix2 q k) * t11 m c (ix2 q k) := by
  show V m c main_v25 (((cfg0.win 7).blk t).view.emb (ix2 (⟨0 + k.val, by omega⟩ : Fin 288) q)) = _
  have e : ((cfg0.win 7).blk t).view.emb (ix2 (⟨0 + k.val, by omega⟩ : Fin 288) q) = ix2 (⟨0 + k.val, by omega⟩ : Fin 288) q :=
    idx2_ext _ _ (by show win0_7.index t (0 : Fin 2) * 288 + 1 * (0 + k.val) = 0 + k.val; rw [(whole7 t).1]; omega)
      (by show win0_7.index t (1 : Fin 2) * 32 + 1 * q.val = q.val; rw [(whole7 t).2]; omega)
  rw [e]
  exact wcov0 m c k q
theorem slab7_1 (c : Dev nD) (t : Fin cfg0.N) (k q : Fin 32) :
    iblk m c 7 t (ix2 (⟨32 + k.val, by omega⟩ : Fin 288) q) = t11 m c (ix2 q k) * t12 m c (ix2 q k) := by
  show V m c main_v25 (((cfg0.win 7).blk t).view.emb (ix2 (⟨32 + k.val, by omega⟩ : Fin 288) q)) = _
  have e : ((cfg0.win 7).blk t).view.emb (ix2 (⟨32 + k.val, by omega⟩ : Fin 288) q) = ix2 (⟨32 + k.val, by omega⟩ : Fin 288) q :=
    idx2_ext _ _ (by show win0_7.index t (0 : Fin 2) * 288 + 1 * (32 + k.val) = 32 + k.val; rw [(whole7 t).1]; omega)
      (by show win0_7.index t (1 : Fin 2) * 32 + 1 * q.val = q.val; rw [(whole7 t).2]; omega)
  rw [e]
  exact wcov1 m c k q
theorem slab7_2 (c : Dev nD) (t : Fin cfg0.N) (k q : Fin 32) :
    iblk m c 7 t (ix2 (⟨64 + k.val, by omega⟩ : Fin 288) q) = t12 m c (ix2 q k) * t12 m c (ix2 q k) := by
  show V m c main_v25 (((cfg0.win 7).blk t).view.emb (ix2 (⟨64 + k.val, by omega⟩ : Fin 288) q)) = _
  have e : ((cfg0.win 7).blk t).view.emb (ix2 (⟨64 + k.val, by omega⟩ : Fin 288) q) = ix2 (⟨64 + k.val, by omega⟩ : Fin 288) q :=
    idx2_ext _ _ (by show win0_7.index t (0 : Fin 2) * 288 + 1 * (64 + k.val) = 64 + k.val; rw [(whole7 t).1]; omega)
      (by show win0_7.index t (1 : Fin 2) * 32 + 1 * q.val = q.val; rw [(whole7 t).2]; omega)
  rw [e]
  exact wcov2 m c k q
theorem slab7_3 (c : Dev nD) (t : Fin cfg0.N) (k q : Fin 32) :
    iblk m c 7 t (ix2 (⟨96 + k.val, by omega⟩ : Fin 288) q) = t21 m c (ix2 q k) * t21 m c (ix2 q k) := by
  show V m c main_v25 (((cfg0.win 7).blk t).view.emb (ix2 (⟨96 + k.val, by omega⟩ : Fin 288) q)) = _
  have e : ((cfg0.win 7).blk t).view.emb (ix2 (⟨96 + k.val, by omega⟩ : Fin 288) q) = ix2 (⟨96 + k.val, by omega⟩ : Fin 288) q :=
    idx2_ext _ _ (by show win0_7.index t (0 : Fin 2) * 288 + 1 * (96 + k.val) = 96 + k.val; rw [(whole7 t).1]; omega)
      (by show win0_7.index t (1 : Fin 2) * 32 + 1 * q.val = q.val; rw [(whole7 t).2]; omega)
  rw [e]
  exact wcov3 m c k q
theorem slab7_4 (c : Dev nD) (t : Fin cfg0.N) (k q : Fin 32) :
    iblk m c 7 t (ix2 (⟨128 + k.val, by omega⟩ : Fin 288) q) = t21 m c (ix2 q k) * t22 m c (ix2 q k) := by
  show V m c main_v25 (((cfg0.win 7).blk t).view.emb (ix2 (⟨128 + k.val, by omega⟩ : Fin 288) q)) = _
  have e : ((cfg0.win 7).blk t).view.emb (ix2 (⟨128 + k.val, by omega⟩ : Fin 288) q) = ix2 (⟨128 + k.val, by omega⟩ : Fin 288) q :=
    idx2_ext _ _ (by show win0_7.index t (0 : Fin 2) * 288 + 1 * (128 + k.val) = 128 + k.val; rw [(whole7 t).1]; omega)
      (by show win0_7.index t (1 : Fin 2) * 32 + 1 * q.val = q.val; rw [(whole7 t).2]; omega)
  rw [e]
  exact wcov4 m c k q
theorem slab7_5 (c : Dev nD) (t : Fin cfg0.N) (k q : Fin 32) :
    iblk m c 7 t (ix2 (⟨160 + k.val, by omega⟩ : Fin 288) q) = t22 m c (ix2 q k) * t22 m c (ix2 q k) := by
  show V m c main_v25 (((cfg0.win 7).blk t).view.emb (ix2 (⟨160 + k.val, by omega⟩ : Fin 288) q)) = _
  have e : ((cfg0.win 7).blk t).view.emb (ix2 (⟨160 + k.val, by omega⟩ : Fin 288) q) = ix2 (⟨160 + k.val, by omega⟩ : Fin 288) q :=
    idx2_ext _ _ (by show win0_7.index t (0 : Fin 2) * 288 + 1 * (160 + k.val) = 160 + k.val; rw [(whole7 t).1]; omega)
      (by show win0_7.index t (1 : Fin 2) * 32 + 1 * q.val = q.val; rw [(whole7 t).2]; omega)
  rw [e]
  exact wcov5 m c k q
theorem slab7_6 (c : Dev nD) (t : Fin cfg0.N) (k q : Fin 32) :
    iblk m c 7 t (ix2 (⟨192 + k.val, by omega⟩ : Fin 288) q) = t21 m c (ix2 q k) * t11 m c (ix2 q k) := by
  show V m c main_v25 (((cfg0.win 7).blk t).view.emb (ix2 (⟨192 + k.val, by omega⟩ : Fin 288) q)) = _
  have e : ((cfg0.win 7).blk t).view.emb (ix2 (⟨192 + k.val, by omega⟩ : Fin 288) q) = ix2 (⟨192 + k.val, by omega⟩ : Fin 288) q :=
    idx2_ext _ _ (by show win0_7.index t (0 : Fin 2) * 288 + 1 * (192 + k.val) = 192 + k.val; rw [(whole7 t).1]; omega)
      (by show win0_7.index t (1 : Fin 2) * 32 + 1 * q.val = q.val; rw [(whole7 t).2]; omega)
  rw [e]
  exact wcov6 m c k q
theorem slab7_7 (c : Dev nD) (t : Fin cfg0.N) (k q : Fin 32) :
    iblk m c 7 t (ix2 (⟨224 + k.val, by omega⟩ : Fin 288) q) = t22 m c (ix2 q k) * t11 m c (ix2 q k) + t21 m c (ix2 q k) * t12 m c (ix2 q k) := by
  show V m c main_v25 (((cfg0.win 7).blk t).view.emb (ix2 (⟨224 + k.val, by omega⟩ : Fin 288) q)) = _
  have e : ((cfg0.win 7).blk t).view.emb (ix2 (⟨224 + k.val, by omega⟩ : Fin 288) q) = ix2 (⟨224 + k.val, by omega⟩ : Fin 288) q :=
    idx2_ext _ _ (by show win0_7.index t (0 : Fin 2) * 288 + 1 * (224 + k.val) = 224 + k.val; rw [(whole7 t).1]; omega)
      (by show win0_7.index t (1 : Fin 2) * 32 + 1 * q.val = q.val; rw [(whole7 t).2]; omega)
  rw [e]
  exact wcov7 m c k q
theorem slab7_8 (c : Dev nD) (t : Fin cfg0.N) (k q : Fin 32) :
    iblk m c 7 t (ix2 (⟨256 + k.val, by omega⟩ : Fin 288) q) = t22 m c (ix2 q k) * t12 m c (ix2 q k) := by
  show V m c main_v25 (((cfg0.win 7).blk t).view.emb (ix2 (⟨256 + k.val, by omega⟩ : Fin 288) q)) = _
  have e : ((cfg0.win 7).blk t).view.emb (ix2 (⟨256 + k.val, by omega⟩ : Fin 288) q) = ix2 (⟨256 + k.val, by omega⟩ : Fin 288) q :=
    idx2_ext _ _ (by show win0_7.index t (0 : Fin 2) * 288 + 1 * (256 + k.val) = 256 + k.val; rw [(whole7 t).1]; omega)
      (by show win0_7.index t (1 : Fin 2) * 32 + 1 * q.val = q.val; rw [(whole7 t).2]; omega)
  rw [e]
  exact wcov8 m c k q

theorem row8 (c : Dev nD) (t : Fin cfg0.N) : iblk m c 8 t = (m ((c : Thread nD τ).loc main_arg10)) := by
  funext y
  show V m c main_arg10 (((cfg0.win 8).blk t).view.emb y) = _
  rw [V_main_arg10]
  exact congrArg _ (idx2_ext _ _
    (by show win0_8.index t (0 : Fin 2) * 1 + 1 * (y 0).val = (y 0).val; rw [(whole8 t).1]; omega)
    (by show win0_8.index t (1 : Fin 2) * 64 + 1 * (y 1).val = (y 1).val; rw [(whole8 t).2]; omega))
theorem row9 (c : Dev nD) (t : Fin cfg0.N) : iblk m c 9 t = (m ((c : Thread nD τ).loc main_arg11)) := by
  funext y
  show V m c main_arg11 (((cfg0.win 9).blk t).view.emb y) = _
  rw [V_main_arg11]
  exact congrArg _ (idx2_ext _ _
    (by show win0_9.index t (0 : Fin 2) * 1 + 1 * (y 0).val = (y 0).val; rw [(whole9 t).1]; omega)
    (by show win0_9.index t (1 : Fin 2) * 64 + 1 * (y 1).val = (y 1).val; rw [(whole9 t).2]; omega))

theorem holds (c : Dev nD) (t : Fin cfg0.N) :
    BlockValue.Holds (t.val * 4096) (by have := point_lt t; omega)
      (iblk m c 0 t) (iblk m c 1 t) (iblk m c 2 t) (iblk m c 3 t) (iblk m c 4 t) (iblk m c 5 t) (iblk m c 6 t) (iblk m c 7 t)
      (iblk m c 8 t) (iblk m c 9 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ⟨blk0 m c t, blk1 m c t, blk2 m c t, blk3 m c t, blk4 m c t, blk5 m c t,
    slab6_0 m c t, slab6_1 m c t, slab6_2 m c t, slab6_3 m c t,
    slab7_0 m c t, slab7_1 m c t, slab7_2 m c t, slab7_3 m c t, slab7_4 m c t, slab7_5 m c t, slab7_6 m c t, slab7_7 m c t, slab7_8 m c t,
    row8 m c t, row9 m c t⟩

/-! ## The result array -/

/-- The reference's result function at core `c`'s launch arguments. -/
abbrev G (c : Dev nD) : S262144x160.Idx → Elt Ideal .f32 :=
  Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem hz : (![0, 0] : Fin 2 → Nat) = fun _ => 0 := funext fun a => by fin_cases a <;> rfl

/-- Column c of the 160 is column q of one of the five blocks. -/
theorem col_cases (j : Fin 160) :
    (∃ q : Fin 32, j = ⟨q.val, Nat.lt_of_lt_of_le q.isLt (by decide)⟩)
    ∨ (∃ q : Fin 32, j = ⟨32 + q.val, Nat.lt_of_lt_of_le (Nat.add_lt_add_left q.isLt 32) (by decide)⟩)
    ∨ (∃ q : Fin 32, j = ⟨64 + q.val, Nat.lt_of_lt_of_le (Nat.add_lt_add_left q.isLt 64) (by decide)⟩)
    ∨ (∃ q : Fin 32, j = ⟨96 + q.val, Nat.lt_of_lt_of_le (Nat.add_lt_add_left q.isLt 96) (by decide)⟩)
    ∨ (∃ q : Fin 32, j = ⟨128 + q.val, Nat.lt_of_lt_of_le (Nat.add_lt_add_left q.isLt 128) (by decide)⟩) := by
  have hj := j.isLt
  by_cases h1 : j.val < 32
  · exact Or.inl ⟨⟨j.val, h1⟩, rfl⟩
  by_cases h2 : j.val < 64
  · exact Or.inr (Or.inl ⟨⟨j.val - 32, by omega⟩, Fin.ext (by show j.val = 32 + (j.val - 32); omega)⟩)
  by_cases h3 : j.val < 96
  · exact Or.inr (Or.inr (Or.inl ⟨⟨j.val - 64, by omega⟩, Fin.ext (by show j.val = 64 + (j.val - 64); omega)⟩))
  by_cases h4 : j.val < 128
  · exact Or.inr (Or.inr (Or.inr (Or.inl ⟨⟨j.val - 96, by omega⟩, Fin.ext (by show j.val = 96 + (j.val - 96); omega)⟩)))
  · exact Or.inr (Or.inr (Or.inr (Or.inr ⟨⟨j.val - 128, by omega⟩, Fin.ext (by show j.val = 128 + (j.val - 128); omega)⟩)))

/-- Entry (r, j) of point `t`'s block of the result array is entry (4096 t + r, j) of the array. -/
theorem emb10 (t : Fin cfg0.N) (r : Fin 4096) (j : Fin 160) :
    ((cfg0.win 10).blk t).view.emb (ix2 r j) = ix2 (⟨t.val * 4096 + r.val, by have := point_lt t; omega⟩ : Fin 262144) j :=
  idx2_ext _ _ (by show win0_10.index t (0 : Fin 2) * 4096 + 1 * r.val = t.val * 4096 + r.val; rw [(rows10 t).1]; omega)
    (by show win0_10.index t (1 : Fin 2) * 160 + 1 * j.val = j.val; rw [(rows10 t).2]; omega)

/-- What point `t` writes back is block `t` of that function. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  unfold outBlock
  rw [View.canon_unit_zero hz]
  unfold outVal
  simp only [View.ld_unit_zero (S := S4096x64) hz, View.ld_unit_zero (S := S4096x32) hz, View.ld_unit_zero (S := S128x32) hz,
    View.ld_unit_zero (S := S288x32) hz, View.ld_unit_zero (S := S1x64) hz]
  funext y
  obtain ⟨r, j, rfl⟩ : ∃ (r : Fin 4096) (j : Fin 160), y = ix2 r j := ⟨y 0, y 1, eq_ix2 y⟩
  show BlockValue.blockVal (iblk m c 0 t) (iblk m c 1 t) (iblk m c 2 t) (iblk m c 3 t) (iblk m c 4 t) (iblk m c 5 t) (iblk m c 6 t)
      (iblk m c 7 t) (iblk m c 8 t) (iblk m c 9 t) (ix2 r j) = G m c (((cfg0.win 10).blk t).view.emb (ix2 r j))
  have H := holds m c t
  rcases col_cases j with ⟨q, rfl⟩ | ⟨q, rfl⟩ | ⟨q, rfl⟩ | ⟨q, rfl⟩ | ⟨q, rfl⟩
  · rw [emb10]
    exact (BlockValue.meanU H r q).trans (Cert.ReferenceIdeal.RefAt.meanU _ _ _ _ _ _ _ _ _ _ _ _ _ q).symm
  · rw [emb10]
    exact (BlockValue.meanL H r q).trans (Cert.ReferenceIdeal.RefAt.meanL _ _ _ _ _ _ _ _ _ _ _ _ _ q).symm
  · rw [emb10]
    exact (BlockValue.covU H r q).trans (Cert.ReferenceIdeal.RefAt.covU _ _ _ _ _ _ _ _ _ _ _ _ _ q).symm
  · rw [emb10]
    exact (BlockValue.covL H r q).trans (Cert.ReferenceIdeal.RefAt.covL _ _ _ _ _ _ _ _ _ _ _ _ _ q).symm
  · rw [emb10]
    exact (BlockValue.covS H r q).trans (Cert.ReferenceIdeal.RefAt.covS _ _ _ _ _ _ _ _ _ _ _ _ _ q).symm

/-- An index of the result array is in point `t`'s block iff each coordinate is in the block's range on its axis. -/
theorem mem_blk (t : Fin cfg0.N) (i : S262144x160.Idx) :
    i ∈ ((cfg0.win 10).blk t).view.set ↔ ∀ a : Fin 2, win0_10.index t a * S4096x160.size a ≤ (i a).val ∧ (i a).val < win0_10.index t a * S4096x160.size a + S4096x160.size a := by
  show i ∈ ((View.whole main_v26).slice (win0_10.rect t)).set ↔ _
  rw [View.set_slice_whole, Rect.mem_set_unit]
  exact Iff.rfl

/-- Row p lies in the block of point p / 4096: the 64 blocks tile the rows. -/
theorem cover (i : S262144x160.Idx) : ∃ t : Fin cfg0.N, (cfg0.win 10).flush t = true ∧ i ∈ ((cfg0.win 10).blk t).view.set := by
  have h0 : (i 0).val < 262144 := (i 0).isLt
  have h1 : (i 1).val < 160 := (i 1).isLt
  refine ⟨⟨(i 0).val / 4096, by rw [show cfg0.N = 64 from N_0]; omega⟩, flush0_10 _, ?_⟩
  rw [mem_blk]
  intro a
  match a with
  | ⟨0, _⟩ =>
    show win0_10.index _ (0 : Fin 2) * 4096 ≤ (i 0).val ∧ (i 0).val < win0_10.index _ (0 : Fin 2) * 4096 + 4096
    rw [(rows10 _).1]
    show (i 0).val / 4096 * 4096 ≤ (i 0).val ∧ (i 0).val < (i 0).val / 4096 * 4096 + 4096
    omega
  | ⟨1, _⟩ =>
    show win0_10.index _ (1 : Fin 2) * 160 ≤ (i 1).val ∧ (i 1).val < win0_10.index _ (1 : Fin 2) * 160 + 160
    rw [(rows10 _).2]
    omega

/-- After the run the result array is the reference's result function of the launch arguments. -/
theorem final (c : Dev nD) : (dats m 0 c).arrAt 10 cfg0.N = G m c :=
  (dats m 0 c).arrAt_eq_of_cover 10 (G m c) (fun t _ => flushed_eq m c t) (cover)

/-- The kernel program's run with its result named and its arguments kept. -/
theorem run : θ_run defs (onTc (τ := τ) (main (F := Ideal))) ⟨m, fun _ => 0, ρ⟩ (fun r => ∀ c : Dev nD,
      r.2.mem ((c.tc : Thread nD τ).loc main_v26) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).1 10).trans (final m c),
     ((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).1 2).trans ((((dats m) 0 c).arrAt_in 2 rfl _).trans ((A_eq m c 2).trans (V_main_arg2 m c))),
     ((h c).1 3).trans ((((dats m) 0 c).arrAt_in 3 rfl _).trans ((A_eq m c 3).trans (V_main_arg3 m c))),
     ((h c).1 4).trans ((((dats m) 0 c).arrAt_in 4 rfl _).trans ((A_eq m c 4).trans (V_main_arg4 m c))),
     ((h c).1 5).trans ((((dats m) 0 c).arrAt_in 5 rfl _).trans ((A_eq m c 5).trans (V_main_arg5 m c))),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c),
     ((h c).1 8).trans ((((dats m) 0 c).arrAt_in 8 rfl _).trans ((A_eq m c 8).trans (V_main_arg10 m c))),
     ((h c).1 9).trans ((((dats m) 0 c).arrAt_in 9 rfl _).trans ((A_eq m c 9).trans (V_main_arg11 m c)))⟩)
    (run_main m ρ)

end Cert.KernelIdeal.Final

end
-- ==== Proof.lean ====
/-
  Kernel and reference compute one function on the extended reals.

  The kernel stacks the four transposed transition blocks into one slab and nine transposed entrywise products of
  them into another on the host, then runs one pipelined region of 64 points: point t reads rows 4096 t .. 4096 t + 4095
  of the state and covariance arrays and writes the same rows of the 160-column result (new mean | upper | lower |
  side covariance), every matrix product a 4096 x 32 block against a 32-row piece of a slab. The reference takes the
  same thirteen products against the whole arrays and joins the same four column blocks.

  Frames: each program runs to the end and leaves its twelve arguments as launched (the kernel's by the pipeline's
  frame post with the body's one whole-block store; the reference's by its run with the result dropped).
  Preserves: the ideal pass rewrote nothing.
  Algebraic: after the kernel's run the result array is the reference's own result function of the launch arguments,
  block by block and entry by entry; the reference's run ends at that function of its own arguments, which agree.
-/
import proofs.«102485_j84937273246072_1_alg».proof.Defs
import proofs.«102485_j84937273246072_1_alg».proof.Proof.Gen.Kernel
import proofs.«102485_j84937273246072_1_alg».proof.Proof.Gen.KernelIdeal
import proofs.«102485_j84937273246072_1_alg».proof.Proof.Gen.ReferenceIdeal
import proofs.«102485_j84937273246072_1_alg».proof.Proof.Gen.ReferenceIdeal.Run
import proofs.«102485_j84937273246072_1_alg».proof.Proof.Gen.ReferenceIdeal.Read
import proofs.«102485_j84937273246072_1_alg».proof.Proof.Gen.Pre_finite_inputs
import proofs.«102485_j84937273246072_1_alg».proof.Proof.KFrame
import proofs.«102485_j84937273246072_1_alg».proof.Proof.KIFrame
import proofs.«102485_j84937273246072_1_alg».proof.Proof.KIValue
import Idealize.ShloMosaic.Adequacy
import Idealize.ShloMosaic.Init

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Frm.frame m ρ

/-- So does the idealized kernel program. -/
theorem frame_ki : @Cert.frame_KernelIdeal Cert.KernelIdeal.Gen.facts Cert.Pre_finite_inputs.Gen.facts :=
  fun m ρ _ => Cert.KernelIdeal.Frm.frame m ρ

/-- And the reference: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the reference's result function of the kernel's launch arguments: the kernel by its blocks,
    the reference because its own arguments agree with them. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v74_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
